-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x4x128x128 : Shape := ⟨4, ![256, 4, 128, 128]⟩
abbrev S_ : Shape := ⟨0, ![]⟩

class Facts : Prop where
  bcast_S_S256x4x128x128 : S_.BroadcastsInDim S256x4x128x128 (![] : Fin 0 → Fin S256x4x128x128.rank)
  reducesTo_S256x4x128x128_S_d0_1_2_3 : S256x4x128x128.ReducesTo [0, 1, 2, 3] S_
  h_S_ : 0 < S_.numel

variable [Facts]

def fn {F : FTy → Type} [FloatOps F] (main_arg0 : FVec F S256x4x128x128 .f32) (main_arg1 : FVec F S256x4x128x128 .f32) : IVec S_ 1 :=
  let main_v0 : FVec F S256x4x128x128 .f32 := Host.absf main_arg0
  let main_cst : FVec F S_ .f32 := constant S_ .f32 0x7F800000#32
  let main_v1 : FVec F S256x4x128x128 .f32 := broadcastInDim S256x4x128x128 ![] bcast_S_S256x4x128x128 main_cst
  let main_v2 : IVec S256x4x128x128 1 := cmpf .olt main_v0 main_v1
  let main_c : IVec S_ 1 := constantI S_ 1 1#1
  let main_v3 : IVec S_ 1 := (fun x v => Host.reduce IntOp.andi x v reducesTo_S256x4x128x128_S_d0_1_2_3 h_S_) main_v2 main_c
  let main_v4 : FVec F S256x4x128x128 .f32 := Host.absf main_arg1
  let main_cst_0 : FVec F S_ .f32 := constant S_ .f32 0x7F800000#32
  let main_v5 : FVec F S256x4x128x128 .f32 := broadcastInDim S256x4x128x128 ![] bcast_S_S256x4x128x128 main_cst_0
  let main_v6 : IVec S256x4x128x128 1 := cmpf .olt main_v4 main_v5
  let main_c_1 : IVec S_ 1 := constantI S_ 1 1#1
  let main_v7 : IVec S_ 1 := (fun x v => Host.reduce IntOp.andi x v reducesTo_S256x4x128x128_S_d0_1_2_3 h_S_) main_v6 main_c_1
  let main_v8 : IVec S_ 1 := andi main_v3 main_v7
  main_v8
-- ==== Kernel.lean ====
abbrev S256x4x128x128 : Shape := ⟨4, ![256, 4, 128, 128]⟩
abbrev S256x65536 : Shape := ⟨2, ![256, 65536]⟩
abbrev S2x256x256 : Shape := ⟨3, ![2, 256, 256]⟩
abbrev S2x1x256 : Shape := ⟨3, ![2, 1, 256]⟩
abbrev S256x4096 : Shape := ⟨2, ![256, 4096]⟩
abbrev S1x256x256 : Shape := ⟨3, ![1, 256, 256]⟩
abbrev S1x1x256 : Shape := ⟨3, ![1, 1, 256]⟩
abbrev S256x256 : Shape := ⟨2, ![256, 256]⟩
abbrev S256x1 : Shape := ⟨2, ![256, 1]⟩
abbrev S256 : Shape := ⟨1, ![256]⟩
abbrev S1x256 : Shape := ⟨2, ![1, 256]⟩
abbrev S_ : Shape := ⟨0, ![]⟩
abbrev S2x256x1 : Shape := ⟨3, ![2, 256, 1]⟩
abbrev S2x256 : Shape := ⟨2, ![2, 256]⟩

abbrev nBuf : Space → Nat
  | .hbm => 56
  | .vmem => 10
  | .smem => 0
  | _ => 0

abbrev bufTy : (tb : Table) → Fin (tcTables nBuf tb) → BufTy
  | .hbm, ⟨0, _⟩ => ⟨S256x4x128x128, .f32⟩
  | .hbm, ⟨1, _⟩ => ⟨S256x4x128x128, .f32⟩
  | .hbm, ⟨2, _⟩ => ⟨S256x65536, .f32⟩
  | .hbm, ⟨3, _⟩ => ⟨S256x65536, .f32⟩
  | .hbm, ⟨4, _⟩ => ⟨S2x256x256, .f32⟩
  | .hbm, ⟨5, _⟩ => ⟨S2x1x256, .f32⟩
  | .hbm, ⟨6, _⟩ => ⟨S2x1x256, .f32⟩
  | .hbm, ⟨7, _⟩ => ⟨S_, .f32⟩
  | .hbm, ⟨8, _⟩ => ⟨S2x1x256, .f32⟩
  | .hbm, ⟨9, _⟩ => ⟨S2x1x256, .f32⟩
  | .hbm, ⟨10, _⟩ => ⟨S2x256x1, .f32⟩
  | .hbm, ⟨11, _⟩ => ⟨S2x256x256, .f32⟩
  | .hbm, ⟨12, _⟩ => ⟨S2x256x256, .f32⟩
  | .hbm, ⟨13, _⟩ => ⟨S2x256x256, .f32⟩
  | .hbm, ⟨14, _⟩ => ⟨S2x256x256, .f32⟩
  | .hbm, ⟨15, _⟩ => ⟨S256x256, .i32⟩
  | .hbm, ⟨16, _⟩ => ⟨S256x256, .i32⟩
  | .hbm, ⟨17, _⟩ => ⟨S_, .i32⟩
  | .hbm, ⟨18, _⟩ => ⟨S256x256, .i32⟩
  | .hbm, ⟨19, _⟩ => ⟨S256x256, .i32⟩
  | .hbm, ⟨20, _⟩ => ⟨S256x256, .i1⟩
  | .hbm, ⟨21, _⟩ => ⟨S1x256x256, .i1⟩
  | .hbm, ⟨22, _⟩ => ⟨S_, .f32⟩
  | .hbm, ⟨23, _⟩ => ⟨S_, .f32⟩
  | .hbm, ⟨24, _⟩ => ⟨S2x256x256, .i1⟩
  | .hbm, ⟨25, _⟩ => ⟨S2x256x256, .f32⟩
  | .hbm, ⟨26, _⟩ => ⟨S2x256x256, .f32⟩
  | .hbm, ⟨27, _⟩ => ⟨S_, .f32⟩
  | .hbm, ⟨28, _⟩ => ⟨S2x256, .f32⟩
  | .hbm, ⟨29, _⟩ => ⟨S_, .f32⟩
  | .hbm, ⟨30, _⟩ => ⟨S2x256, .f32⟩
  | .hbm, ⟨31, _⟩ => ⟨S2x256, .f32⟩
  | .hbm, ⟨32, _⟩ => ⟨S2x256x1, .f32⟩
  | .hbm, ⟨33, _⟩ => ⟨S2x256x256, .f32⟩
  | .hbm, ⟨34, _⟩ => ⟨S2x256x256, .f32⟩
  | .hbm, ⟨35, _⟩ => ⟨S2x256x256, .f32⟩
  | .hbm, ⟨36, _⟩ => ⟨S_, .f32⟩
  | .hbm, ⟨37, _⟩ => ⟨S2x256, .f32⟩
  | .hbm, ⟨38, _⟩ => ⟨S2x256x1, .f32⟩
  | .hbm, ⟨39, _⟩ => ⟨S2x256x256, .f32⟩
  | .hbm, ⟨40, _⟩ => ⟨S2x256x256, .f32⟩
  | .hbm, ⟨41, _⟩ => ⟨S_, .f32⟩
  | .hbm, ⟨42, _⟩ => ⟨S2x256x256, .f32⟩
  | .hbm, ⟨43, _⟩ => ⟨S2x256x256, .f32⟩
  | .hbm, ⟨44, _⟩ => ⟨S1x256x256, .f32⟩
  | .hbm, ⟨45, _⟩ => ⟨S256x256, .f32⟩
  | .hbm, ⟨46, _⟩ => ⟨S1x256x256, .f32⟩
  | .hbm, ⟨47, _⟩ => ⟨S256x256, .f32⟩
  | .hbm, ⟨48, _⟩ => ⟨S256x256, .f32⟩
  | .hbm, ⟨49, _⟩ => ⟨S256x256, .f32⟩
  | .hbm, ⟨50, _⟩ => ⟨S256x256, .f32⟩
  | .hbm, ⟨51, _⟩ => ⟨S256x256, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x256x256, .f32⟩
  | .local _ .vmem, ⟨5, _⟩ => ⟨S1x256x256, .f32⟩
  | .local _ .vmem, ⟨6, _⟩ => ⟨S1x1x256, .f32⟩
  | .local _ .vmem, ⟨7, _⟩ => ⟨S1x1x256, .f32⟩
  | .local _ .vmem, ⟨8, _⟩ => ⟨S256x256, .f32⟩
  | .local _ .vmem, ⟨9, _⟩ => ⟨S256x1, .f32⟩
  | _, _ => ⟨S256x4x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def k0_cond4 (i : grid0.Coords) : BitVec 1 :=
  let arg1 : BitVec 32 := BitVec.ofNat 32 (i 1).val
  let c15_i32 : BitVec 32 := 15#32
  let v9 : BitVec 1 := Scalar.cmpi .eq arg1 c15_i32
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![c0_i32_1.toNat, v1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![c0_i32_0.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S256x4x128x128_S256x65536 : S256x4x128x128.ShapeCasts S256x65536
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  bitsLt_bf16_f32 : FTy.bits .bf16 < FTy.bits .f32
  reduces_S256x4096_S256 : S256x4096.Reduces [1] S256
  shapeCasts_S256_S256x1 : S256.ShapeCasts S256x1
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  transposes_S256x1_p1_0_S1x256 : S256x1.Transposes [1, 0] S1x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  shapeCasts_S1x256_S1x1x256 : S1x256.ShapeCasts S1x1x256
  bcast_S_S2x1x256 : S_.BroadcastsInDim S2x1x256 (![] : Fin 0 → Fin S2x1x256.rank)
  transposes_S2x1x256_S2x256x1_0_2_1 : S2x1x256.Transposes [0, 2, 1] S2x256x1
  bcast_S2x256x1_S2x256x256_0_1_2 : S2x256x1.BroadcastsInDim S2x256x256 (![0, 1, 2] : Fin 3 → Fin S2x256x256.rank)
  bcast_S2x1x256_S2x256x256_0_1_2 : S2x1x256.BroadcastsInDim S2x256x256 (![0, 1, 2] : Fin 3 → Fin S2x256x256.rank)
  bcast_S_S256x256 : S_.BroadcastsInDim S256x256 (![] : Fin 0 → Fin S256x256.rank)
  bcast_S256x256_S1x256x256_1_2 : S256x256.BroadcastsInDim S1x256x256 (![1, 2] : Fin 2 → Fin S1x256x256.rank)
  bcast_S1x256x256_S2x256x256_0_1_2 : S1x256x256.BroadcastsInDim S2x256x256 (![0, 1, 2] : Fin 3 → Fin S2x256x256.rank)
  bcast_S_S2x256x256 : S_.BroadcastsInDim S2x256x256 (![] : Fin 0 → Fin S2x256x256.rank)
  reducesTo_S2x256x256_S2x256_d2 : S2x256x256.ReducesTo [2] S2x256
  h_S_ : 0 < S_.numel
  bcast_S_S2x256 : S_.BroadcastsInDim S2x256 (![] : Fin 0 → Fin S2x256.rank)
  bcast_S2x256_S2x256x1_0_1 : S2x256.BroadcastsInDim S2x256x1 (![0, 1] : Fin 2 → Fin S2x256x1.rank)
  slices_S2x256x256_S1x256x256_0_0_0 : S2x256x256.Slices ![0, 0, 0] S1x256x256
  slices_S2x256x256_S1x256x256_1_0_0 : S2x256x256.Slices ![1, 0, 0] S1x256x256
  reducesTo_S256x256_S_d0_1 : S256x256.ReducesTo [0, 1] S_
  dot_S256x4096_S256x4096_S256x256_1_1_0_0_n_n_wf : DotDims.WF S256x4096 S256x4096 S256x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S256x65536.size a
  hwx0_0 : ∀ i : grid0.Coords, EltTy.bits .f32 = 32 ∨ (Rect.block (s := S256x65536) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S256x65536.size a
  hwx0_1 : ∀ i : grid0.Coords, EltTy.bits .f32 = 32 ∨ (Rect.block (s := S256x65536) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x256.size a ≤ S2x256x256.size a
  hwx0_2 : ∀ i : grid0.Coords, EltTy.bits .f32 = 32 ∨ (Rect.block (s := S2x256x256) S1x256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256.size a ≤ S2x1x256.size a
  hwx0_3 : ∀ i : grid0.Coords, EltTy.bits .f32 = 32 ∨ (Rect.block (s := S2x1x256) S1x1x256.size (cc0_transform_3 i) (hinb0_3 i)).WholeWords (EltTy.packing .f32)

variable [Facts₀]

def dot_S256x4096_S256x4096_S256x256_1_1_0_0_n_n : DotDims S256x4096 S256x4096 S256x256 where
  lhsContracting := [1]
  rhsContracting := [1]
  lhsNonContracting := [0]
  rhsNonContracting := [0]
  lhsBatch := []
  rhsBatch := []
  wf := dot_S256x4096_S256x4096_S256x256_1_1_0_0_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x256x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond4 i == 1#1) | 3 => fun i => !(k0_cond4 i == 1#1) | ⟨_ + 4, h⟩ => absurd h (Nat.not_lt.2 (Nat.le_add_left _ _))

class Facts : Prop extends Facts₀ where

variable [Facts]
-- ==== ReferenceIdeal.lean ====
abbrev S256x4x128x128 : Shape := ⟨4, ![256, 4, 128, 128]⟩
abbrev S256x65536 : Shape := ⟨2, ![256, 65536]⟩
abbrev S_ : Shape := ⟨0, ![]⟩
abbrev S256 : Shape := ⟨1, ![256]⟩
abbrev S256x1 : Shape := ⟨2, ![256, 1]⟩
abbrev S65536x256 : Shape := ⟨2, ![65536, 256]⟩
abbrev S256x256 : Shape := ⟨2, ![256, 256]⟩

abbrev nBuf : Space → Nat
  | .hbm => 90
  | .vmem => 0
  | .smem => 0
  | _ => 0

abbrev bufTy : (tb : Table) → Fin (tcTables nBuf tb) → BufTy
  | .hbm, ⟨0, _⟩ => ⟨S256x4x128x128, .f32⟩
  | .hbm, ⟨1, _⟩ => ⟨S256x4x128x128, .f32⟩
  | .hbm, ⟨2, _⟩ => ⟨S256x65536, .f32⟩
  | .hbm, ⟨3, _⟩ => ⟨S256x65536, .f32⟩
  | .hbm, ⟨4, _⟩ => ⟨S256x65536, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x65536, .f32⟩
  | .hbm, ⟨13, _⟩ => ⟨S256x65536, .f32⟩
  | .hbm, ⟨14, _⟩ => ⟨S65536x256, .f32⟩
  | .hbm, ⟨15, _⟩ => ⟨S256x256, .f32⟩
  | .hbm, ⟨16, _⟩ => ⟨S256x256, .i32⟩
  | .hbm, ⟨17, _⟩ => ⟨S256x256, .i32⟩
  | .hbm, ⟨18, _⟩ => ⟨S_, .i32⟩
  | .hbm, ⟨19, _⟩ => ⟨S256x256, .i32⟩
  | .hbm, ⟨20, _⟩ => ⟨S256x256, .i32⟩
  | .hbm, ⟨21, _⟩ => ⟨S256x256, .i1⟩
  | .hbm, ⟨22, _⟩ => ⟨S_, .f32⟩
  | .hbm, ⟨23, _⟩ => ⟨S_, .f32⟩
  | .hbm, ⟨24, _⟩ => ⟨S256x256, .f32⟩
  | .hbm, ⟨25, _⟩ => ⟨S256x256, .f32⟩
  | .hbm, ⟨26, _⟩ => ⟨S_, .f32⟩
  | .hbm, ⟨27, _⟩ => ⟨S256, .f32⟩
  | .hbm, ⟨28, _⟩ => ⟨S_, .f32⟩
  | .hbm, ⟨29, _⟩ => ⟨S256, .f32⟩
  | .hbm, ⟨30, _⟩ => ⟨S256, .f32⟩
  | .hbm, ⟨31, _⟩ => ⟨S256x1, .f32⟩
  | .hbm, ⟨32, _⟩ => ⟨S256x256, .f32⟩
  | .hbm, ⟨33, _⟩ => ⟨S256x256, .f32⟩
  | .hbm, ⟨34, _⟩ => ⟨S256x256, .f32⟩
  | .hbm, ⟨35, _⟩ => ⟨S_, .f32⟩
  | .hbm, ⟨36, _⟩ => ⟨S256, .f32⟩
  | .hbm, ⟨37, _⟩ => ⟨S256x1, .f32⟩
  | .hbm, ⟨38, _⟩ => ⟨S256x256, .f32⟩
  | .hbm, ⟨39, _⟩ => ⟨S256x256, .f32⟩
  | .hbm, ⟨40, _⟩ => ⟨S_, .f32⟩
  | .hbm, ⟨41, _⟩ => ⟨S256x256, .f32⟩
  | .hbm, ⟨42, _⟩ => ⟨S256x256, .f32⟩
  | .hbm, ⟨43, _⟩ => ⟨S256x65536, .f32⟩
  | .hbm, ⟨44, _⟩ => ⟨S_, .f32⟩
  | .hbm, ⟨45, _⟩ => ⟨S256, .f32⟩
  | .hbm, ⟨46, _⟩ => ⟨S256x1, .f32⟩
  | .hbm, ⟨47, _⟩ => ⟨S256x1, .f32⟩
  | .hbm, ⟨48, _⟩ => ⟨S_, .f32⟩
  | .hbm, ⟨49, _⟩ => ⟨S256x1, .f32⟩
  | .hbm, ⟨50, _⟩ => ⟨S256x1, .f32⟩
  | .hbm, ⟨51, _⟩ => ⟨S256x65536, .f32⟩
  | .hbm, ⟨52, _⟩ => ⟨S256x65536, .f32⟩
  | .hbm, ⟨53, _⟩ => ⟨S65536x256, .f32⟩
  | .hbm, ⟨54, _⟩ => ⟨S256x256, .f32⟩
  | .hbm, ⟨55, _⟩ => ⟨S256x256, .i32⟩
  | .hbm, ⟨56, _⟩ => ⟨S256x256, .i32⟩
  | .hbm, ⟨57, _⟩ => ⟨S_, .i32⟩
  | .hbm, ⟨58, _⟩ => ⟨S256x256, .i32⟩
  | .hbm, ⟨59, _⟩ => ⟨S256x256, .i32⟩
  | .hbm, ⟨60, _⟩ => ⟨S256x256, .i1⟩
  | .hbm, ⟨61, _⟩ => ⟨S_, .f32⟩
  | .hbm, ⟨62, _⟩ => ⟨S_, .f32⟩
  | .hbm, ⟨63, _⟩ => ⟨S256x256, .f32⟩
  | .hbm, ⟨64, _⟩ => ⟨S256x256, .f32⟩
  | .hbm, ⟨65, _⟩ => ⟨S_, .f32⟩
  | .hbm, ⟨66, _⟩ => ⟨S256, .f32⟩
  | .hbm, ⟨67, _⟩ => ⟨S_, .f32⟩
  | .hbm, ⟨68, _⟩ => ⟨S256, .f32⟩
  | .hbm, ⟨69, _⟩ => ⟨S256, .f32⟩
  | .hbm, ⟨70, _⟩ => ⟨S256x1, .f32⟩
  | .hbm, ⟨71, _⟩ => ⟨S256x256, .f32⟩
  | .hbm, ⟨72, _⟩ => ⟨S256x256, .f32⟩
  | .hbm, ⟨73, _⟩ => ⟨S256x256, .f32⟩
  | .hbm, ⟨74, _⟩ => ⟨S_, .f32⟩
  | .hbm, ⟨75, _⟩ => ⟨S256, .f32⟩
  | .hbm, ⟨76, _⟩ => ⟨S256x1, .f32⟩
  | .hbm, ⟨77, _⟩ => ⟨S256x256, .f32⟩
  | .hbm, ⟨78, _⟩ => ⟨S256x256, .f32⟩
  | .hbm, ⟨79, _⟩ => ⟨S_, .f32⟩
  | .hbm, ⟨80, _⟩ => ⟨S256x256, .f32⟩
  | .hbm, ⟨81, _⟩ => ⟨S256x256, .f32⟩
  | .hbm, ⟨82, _⟩ => ⟨S256x256, .f32⟩
  | .hbm, ⟨83, _⟩ => ⟨S256x256, .f32⟩
  | .hbm, ⟨84, _⟩ => ⟨S256x256, .f32⟩
  | .hbm, ⟨85, _⟩ => ⟨S256x256, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | _, _ => ⟨S256x4x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_call1_v0 : Ref sig .tc := ⟨.hbm, 23, rfl⟩
abbrev main_call1_v1 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_call2_v0 : Ref sig .tc := ⟨.hbm, 43, rfl⟩
abbrev main_call2_cst : Ref sig .tc := ⟨.hbm, 44, rfl⟩
abbrev main_call2_v1 : Ref sig .tc := ⟨.hbm, 45, rfl⟩
abbrev main_call2_v2 : Ref sig .tc := ⟨.hbm, 46, rfl⟩
abbrev main_v28 : Ref sig .tc := ⟨.hbm, 47, rfl⟩
abbrev main_cst_5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_call3_v0 : Ref sig .tc := ⟨.hbm, 62, rfl⟩
abbrev main_call3_v1 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_cst_9 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_10 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_11 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_12 : Ref sig .tc := ⟨.hbm, 86, rfl⟩
abbrev main_v58 : Ref sig .tc := ⟨.hbm, 87, rfl⟩
abbrev main_cst_13 : Ref sig .tc := ⟨.hbm, 88, rfl⟩
abbrev main_v59 : Ref sig .tc := ⟨.hbm, 89, rfl⟩

abbrev nD : Nat := 1
abbrev τ : Topo := Topo.v7x

variable {F : FTy → Type} [FloatOps F]

class Facts₀ : Prop where
  shapeCasts_S256x4x128x128_S256x65536 : S256x4x128x128.ShapeCasts S256x65536
  reducesTo_S256x65536_S256_d1 : S256x65536.ReducesTo [1] S256
  h_S_ : 0 < S_.numel
  bcast_S256_S256x1_0 : S256.BroadcastsInDim S256x1 (![0] : Fin 1 → Fin S256x1.rank)
  bcast_S_S256x1 : S_.BroadcastsInDim S256x1 (![] : Fin 0 → Fin S256x1.rank)
  bcast_S256x1_S256x65536_0_1 : S256x1.BroadcastsInDim S256x65536 (![0, 1] : Fin 2 → Fin S256x65536.rank)
  transposes_S256x65536_S65536x256_1_0 : S256x65536.Transposes [1, 0] S65536x256
  bcast_S_S256x256 : S_.BroadcastsInDim S256x256 (![] : Fin 0 → Fin S256x256.rank)
  reducesTo_S256x256_S256_d1 : S256x256.ReducesTo [1] S256
  bcast_S_S256 : S_.BroadcastsInDim S256 (![] : Fin 0 → Fin S256.rank)
  bcast_S256x1_S256x256_0_1 : S256x1.BroadcastsInDim S256x256 (![0, 1] : Fin 2 → Fin S256x256.rank)
  reducesTo_S256x256_S_d0_1 : S256x256.ReducesTo [0, 1] S_
  dot_S256x65536_S65536x256_S256x256_1_0_0_1_n_n_wf : DotDims.WF S256x65536 S65536x256 S256x256 [1] [0] [0] [1] [] []

variable [Facts₀]

def dot_S256x65536_S65536x256_S256x256_1_0_0_1_n_n : DotDims S256x65536 S65536x256 S256x256 where
  lhsContracting := [1]
  rhsContracting := [0]
  lhsNonContracting := [0]
  rhsNonContracting := [1]
  lhsBatch := []
  rhsBatch := []
  wf := dot_S256x65536_S65536x256_S256x256_1_0_0_1_n_n_wf

class Facts : Prop extends Facts₀ where

variable [Facts]
-- ==== Proof.Pieces.lean ====
/-
  What one run of the kernel body leaves behind, case by case, as values.
  The body keeps two accumulators across grid points: a 256 x 256 Gram accumulator and a 256 x 1 column of sums
  of squares.  At a tensor's first tile (cases A, D) it first resets both to zero; at every tile it adds the tile's
  block times its transpose to the first and the tile's row sums of squares to the second; at a tensor's last tile
  (cases C, F) it then copies both into the output blocks (the column transposed to a row).
  Cases A, B, C belong to the first tensor (the body reads the first input block), D, E, F to the second.
-/
import proofs.«414458_j86079734546728_3_alg».proof.Proof.Gen.KernelIdeal.Frame
import Idealize.ShloMosaic.Lib.Pipeline.Value
import Idealize.ShloMosaic.Lib.Tactic

noncomputable section

namespace Cert.KernelIdeal.Region

open Idealize.ShloMosaic Idealize.ShloMosaic.TcCoe Idealize.SL.Sem
open Idealize.ShloMosaic.Pipeline (Dat)
open Cert.KernelIdeal Cert.KernelIdeal.Gen

variable {F : FTy → Type} [FloatOps F]

/-- The zero offsets of a rank-2 block, as the constant function. -/
private theorem hz2 : (![0, 0] : Fin 2 → Nat) = fun _ => 0 := funext fun a => by fin_cases a <;> rfl

/-- The zero offsets of a rank-3 block, as the constant function. -/
private theorem hz3 : (![0, 0, 0] : Fin 3 → Nat) = fun _ => 0 := funext fun a => by fin_cases a <;> rfl

/-- Case A leaves in the Gram accumulator the zero block the reset has just stored plus this tile's product of the first tensor's block with its transpose. -/
theorem acc_A (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S1x256x256 .f32) (harg4 : arg4.IsWhole) (arg5 : Memref sig .tc .vmem S1x1x256 .f32) (harg5 : arg5.IsWhole) (arg6 : Memref sig .tc .vmem S256x256 .f32) (harg6 : arg6.IsWhole) (arg7 : Memref sig .tc .vmem S256x1 .f32) (harg7 : arg7.IsWhole) (hc0 : cond0_0 i) (hc1 : cond0_1 i) (hc2 : ¬cond0_2 i) (hc3 : ¬cond0_3 i) (x0 x1 : Vec F S256x4096 .f32) :
    sout0_A_0 c i arg2 harg2 arg3 harg3 arg4 harg4 arg5 harg5 arg6 harg6 arg7 harg7 hc0 hc1 hc2 hc3 x0 x1 = k0_pay4 x0 (k0_pay1 (F := F)) := by
  unfold sout0_A_0
  rw [View.read_writes_eq_canon _ _ _ (scover0_A_0 c i arg2 harg2 arg3 harg3 arg4 harg4 arg5 harg5 arg6 harg6 arg7 harg7 hc0 hc1 hc2 hc3 x0 x1)]
  unfold kernelRun0_A
  dsimp only
  sl_unfold_words
  rw [View.canon_cons_unit_zero (S := S256x256) hz2, View.readCov_unit_zero (S := S256x256) _ hz2]
  simp only [View.readAt_eq_ld, harg2.read_unread, harg3.read_unread, harg6.read_unread, harg7.read_unread, View.ld_unit_zero (S := S256x4096) hz2, View.ld_unit_zero (S := S256x256) hz2, View.ld_unit_zero (S := S256x1) hz2, View.readCov_unit_zero (S := S256x256) _ hz2, View.readCov_unit_zero (S := S256x1) _ hz2]

/-- Case A leaves in the sum-of-squares accumulator the zero block the reset has just stored plus this tile's row sums of squares. -/
theorem ssq_A (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S1x256x256 .f32) (harg4 : arg4.IsWhole) (arg5 : Memref sig .tc .vmem S1x1x256 .f32) (harg5 : arg5.IsWhole) (arg6 : Memref sig .tc .vmem S256x256 .f32) (harg6 : arg6.IsWhole) (arg7 : Memref sig .tc .vmem S256x1 .f32) (harg7 : arg7.IsWhole) (hc0 : cond0_0 i) (hc1 : cond0_1 i) (hc2 : ¬cond0_2 i) (hc3 : ¬cond0_3 i) (x0 x1 : Vec F S256x4096 .f32) :
    sout0_A_1 c i arg2 harg2 arg3 harg3 arg4 harg4 arg5 harg5 arg6 harg6 arg7 harg7 hc0 hc1 hc2 hc3 x0 x1 = k0_pay5 x0 (k0_pay2 (F := F)) := by
  unfold sout0_A_1
  rw [View.read_writes_eq_canon _ _ _ (scover0_A_1 c i arg2 harg2 arg3 harg3 arg4 harg4 arg5 harg5 arg6 harg6 arg7 harg7 hc0 hc1 hc2 hc3 x0 x1)]
  unfold kernelRun0_A
  dsimp only
  sl_unfold_words
  rw [View.canon_cons_unit_zero (S := S256x1) hz2, View.readCov_unit_zero (S := S256x1) _ hz2]
  simp only [View.readAt_eq_ld, harg2.read_unread, harg3.read_unread, harg6.read_unread, harg7.read_unread, View.ld_unit_zero (S := S256x4096) hz2, View.ld_unit_zero (S := S256x256) hz2, View.ld_unit_zero (S := S256x1) hz2, View.readCov_unit_zero (S := S256x256) _ hz2, View.readCov_unit_zero (S := S256x1) _ hz2]

/-- Case B leaves in the Gram accumulator what the point before left plus this tile's product of the first tensor's block with its transpose. -/
theorem acc_B (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S1x256x256 .f32) (harg4 : arg4.IsWhole) (arg5 : Memref sig .tc .vmem S1x1x256 .f32) (harg5 : arg5.IsWhole) (arg6 : Memref sig .tc .vmem S256x256 .f32) (harg6 : arg6.IsWhole) (arg7 : Memref sig .tc .vmem S256x1 .f32) (harg7 : arg7.IsWhole) (hc0 : ¬cond0_0 i) (hc1 : cond0_1 i) (hc2 : ¬cond0_2 i) (hc3 : ¬cond0_3 i) (x0 x1 : Vec F S256x4096 .f32) (xs0 : Vec F S256x256 .f32) (xs1 : Vec F S256x1 .f32) :
    sout0_B_0 c i arg2 harg2 arg3 harg3 arg4 harg4 arg5 harg5 arg6 harg6 arg7 harg7 hc0 hc1 hc2 hc3 x0 x1 xs0 xs1 = k0_pay4 x0 xs0 := by
  unfold sout0_B_0
  rw [View.read_writes_eq_canon _ _ _ (scover0_B_0 c i arg2 harg2 arg3 harg3 arg4 harg4 arg5 harg5 arg6 harg6 arg7 harg7 hc0 hc1 hc2 hc3 x0 x1 xs0 xs1)]
  unfold kernelRun0_B
  dsimp only
  sl_unfold_words
  rw [View.canon_unit_zero hz2]
  simp only [View.readAt_eq_ld, harg2.read_unread, harg3.read_unread, harg6.read_unread, harg7.read_unread, View.ld_unit_zero (S := S256x4096) hz2, View.ld_unit_zero (S := S256x256) hz2, View.ld_unit_zero (S := S256x1) hz2, View.readCov_unit_zero (S := S256x256) _ hz2, View.readCov_unit_zero (S := S256x1) _ hz2]

/-- Case B leaves in the sum-of-squares accumulator what the point before left plus this tile's row sums of squares. -/
theorem ssq_B (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S1x256x256 .f32) (harg4 : arg4.IsWhole) (arg5 : Memref sig .tc .vmem S1x1x256 .f32) (harg5 : arg5.IsWhole) (arg6 : Memref sig .tc .vmem S256x256 .f32) (harg6 : arg6.IsWhole) (arg7 : Memref sig .tc .vmem S256x1 .f32) (harg7 : arg7.IsWhole) (hc0 : ¬cond0_0 i) (hc1 : cond0_1 i) (hc2 : ¬cond0_2 i) (hc3 : ¬cond0_3 i) (x0 x1 : Vec F S256x4096 .f32) (xs0 : Vec F S256x256 .f32) (xs1 : Vec F S256x1 .f32) :
    sout0_B_1 c i arg2 harg2 arg3 harg3 arg4 harg4 arg5 harg5 arg6 harg6 arg7 harg7 hc0 hc1 hc2 hc3 x0 x1 xs0 xs1 = k0_pay5 x0 xs1 := by
  unfold sout0_B_1
  rw [View.read_writes_eq_canon _ _ _ (scover0_B_1 c i arg2 harg2 arg3 harg3 arg4 harg4 arg5 harg5 arg6 harg6 arg7 harg7 hc0 hc1 hc2 hc3 x0 x1 xs0 xs1)]
  unfold kernelRun0_B
  dsimp only
  sl_unfold_words
  rw [View.canon_unit_zero hz2]
  simp only [View.readAt_eq_ld, harg2.read_unread, harg3.read_unread, harg6.read_unread, harg7.read_unread, View.ld_unit_zero (S := S256x4096) hz2, View.ld_unit_zero (S := S256x256) hz2, View.ld_unit_zero (S := S256x1) hz2, View.readCov_unit_zero (S := S256x256) _ hz2, View.readCov_unit_zero (S := S256x1) _ hz2]

/-- Case C leaves in the Gram accumulator what the point before left plus this tile's product of the first tensor's block with its transpose. -/
theorem acc_C (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S1x256x256 .f32) (harg4 : arg4.IsWhole) (arg5 : Memref sig .tc .vmem S1x1x256 .f32) (harg5 : arg5.IsWhole) (arg6 : Memref sig .tc .vmem S256x256 .f32) (harg6 : arg6.IsWhole) (arg7 : Memref sig .tc .vmem S256x1 .f32) (harg7 : arg7.IsWhole) (hc0 : ¬cond0_0 i) (hc1 : cond0_1 i) (hc2 : ¬cond0_2 i) (hc3 : cond0_3 i) (x0 x1 : Vec F S256x4096 .f32) (xs0 : Vec F S256x256 .f32) (xs1 : Vec F S256x1 .f32) :
    sout0_C_0 c i arg2 harg2 arg3 harg3 arg4 harg4 arg5 harg5 arg6 harg6 arg7 harg7 hc0 hc1 hc2 hc3 x0 x1 xs0 xs1 = k0_pay4 x0 xs0 := by
  unfold sout0_C_0
  rw [View.read_writes_eq_canon _ _ _ (scover0_C_0 c i arg2 harg2 arg3 harg3 arg4 harg4 arg5 harg5 arg6 harg6 arg7 harg7 hc0 hc1 hc2 hc3 x0 x1 xs0 xs1)]
  unfold kernelRun0_C
  dsimp only
  sl_unfold_words
  rw [View.canon_unit_zero hz2]
  simp only [View.readAt_eq_ld, harg2.read_unread, harg3.read_unread, harg6.read_unread, harg7.read_unread, View.ld_unit_zero (S := S256x4096) hz2, View.ld_unit_zero (S := S256x256) hz2, View.ld_unit_zero (S := S256x1) hz2, View.readCov_unit_zero (S := S256x256) _ hz2, View.readCov_unit_zero (S := S256x1) _ hz2]

/-- Case C leaves in the sum-of-squares accumulator what the point before left plus this tile's row sums of squares. -/
theorem ssq_C (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S1x256x256 .f32) (harg4 : arg4.IsWhole) (arg5 : Memref sig .tc .vmem S1x1x256 .f32) (harg5 : arg5.IsWhole) (arg6 : Memref sig .tc .vmem S256x256 .f32) (harg6 : arg6.IsWhole) (arg7 : Memref sig .tc .vmem S256x1 .f32) (harg7 : arg7.IsWhole) (hc0 : ¬cond0_0 i) (hc1 : cond0_1 i) (hc2 : ¬cond0_2 i) (hc3 : cond0_3 i) (x0 x1 : Vec F S256x4096 .f32) (xs0 : Vec F S256x256 .f32) (xs1 : Vec F S256x1 .f32) :
    sout0_C_1 c i arg2 harg2 arg3 harg3 arg4 harg4 arg5 harg5 arg6 harg6 arg7 harg7 hc0 hc1 hc2 hc3 x0 x1 xs0 xs1 = k0_pay5 x0 xs1 := by
  unfold sout0_C_1
  rw [View.read_writes_eq_canon _ _ _ (scover0_C_1 c i arg2 harg2 arg3 harg3 arg4 harg4 arg5 harg5 arg6 harg6 arg7 harg7 hc0 hc1 hc2 hc3 x0 x1 xs0 xs1)]
  unfold kernelRun0_C
  dsimp only
  sl_unfold_words
  rw [View.canon_unit_zero hz2]
  simp only [View.readAt_eq_ld, harg2.read_unread, harg3.read_unread, harg6.read_unread, harg7.read_unread, View.ld_unit_zero (S := S256x4096) hz2, View.ld_unit_zero (S := S256x256) hz2, View.ld_unit_zero (S := S256x1) hz2, View.readCov_unit_zero (S := S256x256) _ hz2, View.readCov_unit_zero (S := S256x1) _ hz2]

/-- Case C (the tensor's last tile) copies the updated Gram accumulator into the output block. -/
theorem gramOut_C (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S1x256x256 .f32) (harg4 : arg4.IsWhole) (arg5 : Memref sig .tc .vmem S1x1x256 .f32) (harg5 : arg5.IsWhole) (arg6 : Memref sig .tc .vmem S256x256 .f32) (harg6 : arg6.IsWhole) (arg7 : Memref sig .tc .vmem S256x1 .f32) (harg7 : arg7.IsWhole) (hc0 : ¬cond0_0 i) (hc1 : cond0_1 i) (hc2 : ¬cond0_2 i) (hc3 : cond0_3 i) (x0 x1 : Vec F S256x4096 .f32) (xs0 : Vec F S256x256 .f32) (xs1 : Vec F S256x1 .f32) :
    out0_C_2 c i arg2 harg2 arg3 harg3 arg4 harg4 arg5 harg5 arg6 harg6 arg7 harg7 hc0 hc1 hc2 hc3 x0 x1 xs0 xs1 = k0_pay9 (k0_pay4 x0 xs0) := by
  unfold out0_C_2
  rw [View.read_writes_eq_canon _ _ _ (cover0_C_2 c i arg2 harg2 arg3 harg3 arg4 harg4 arg5 harg5 arg6 harg6 arg7 harg7 hc0 hc1 hc2 hc3 x0 x1 xs0 xs1)]
  unfold kernelRun0_C
  dsimp only
  sl_unfold_words
  rw [View.canon_unit_zero hz3]
  simp only [View.readAt_eq_ld, harg2.read_unread, harg3.read_unread, harg6.read_unread, harg7.read_unread, View.ld_unit_zero (S := S256x4096) hz2, View.ld_unit_zero (S := S256x256) hz2, View.ld_unit_zero (S := S256x1) hz2, View.readCov_unit_zero (S := S256x256) _ hz2, View.readCov_unit_zero (S := S256x1) _ hz2]

/-- Case C (the tensor's last tile) copies the updated sum-of-squares column, transposed to a row, into the output block. -/
theorem ssqOut_C (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S1x256x256 .f32) (harg4 : arg4.IsWhole) (arg5 : Memref sig .tc .vmem S1x1x256 .f32) (harg5 : arg5.IsWhole) (arg6 : Memref sig .tc .vmem S256x256 .f32) (harg6 : arg6.IsWhole) (arg7 : Memref sig .tc .vmem S256x1 .f32) (harg7 : arg7.IsWhole) (hc0 : ¬cond0_0 i) (hc1 : cond0_1 i) (hc2 : ¬cond0_2 i) (hc3 : cond0_3 i) (x0 x1 : Vec F S256x4096 .f32) (xs0 : Vec F S256x256 .f32) (xs1 : Vec F S256x1 .f32) :
    out0_C_3 c i arg2 harg2 arg3 harg3 arg4 harg4 arg5 harg5 arg6 harg6 arg7 harg7 hc0 hc1 hc2 hc3 x0 x1 xs0 xs1 = k0_pay10 (k0_pay5 x0 xs1) := by
  unfold out0_C_3
  rw [View.read_writes_eq_canon _ _ _ (cover0_C_3 c i arg2 harg2 arg3 harg3 arg4 harg4 arg5 harg5 arg6 harg6 arg7 harg7 hc0 hc1 hc2 hc3 x0 x1 xs0 xs1)]
  unfold kernelRun0_C
  dsimp only
  sl_unfold_words
  rw [View.canon_unit_zero hz3]
  simp only [View.readAt_eq_ld, harg2.read_unread, harg3.read_unread, harg6.read_unread, harg7.read_unread, View.ld_unit_zero (S := S256x4096) hz2, View.ld_unit_zero (S := S256x256) hz2, View.ld_unit_zero (S := S256x1) hz2, View.readCov_unit_zero (S := S256x256) _ hz2, View.readCov_unit_zero (S := S256x1) _ hz2]

/-- Case D leaves in the Gram accumulator the zero block the reset has just stored plus this tile's product of the second tensor's block with its transpose. -/
theorem acc_D (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S1x256x256 .f32) (harg4 : arg4.IsWhole) (arg5 : Memref sig .tc .vmem S1x1x256 .f32) (harg5 : arg5.IsWhole) (arg6 : Memref sig .tc .vmem S256x256 .f32) (harg6 : arg6.IsWhole) (arg7 : Memref sig .tc .vmem S256x1 .f32) (harg7 : arg7.IsWhole) (hc0 : cond0_0 i) (hc1 : ¬cond0_1 i) (hc2 : cond0_2 i) (hc3 : ¬cond0_3 i) (x0 x1 : Vec F S256x4096 .f32) :
    sout0_D_0 c i arg2 harg2 arg3 harg3 arg4 harg4 arg5 harg5 arg6 harg6 arg7 harg7 hc0 hc1 hc2 hc3 x0 x1 = k0_pay7 x1 (k0_pay1 (F := F)) := by
  unfold sout0_D_0
  rw [View.read_writes_eq_canon _ _ _ (scover0_D_0 c i arg2 harg2 arg3 harg3 arg4 harg4 arg5 harg5 arg6 harg6 arg7 harg7 hc0 hc1 hc2 hc3 x0 x1)]
  unfold kernelRun0_D
  dsimp only
  sl_unfold_words
  rw [View.canon_cons_unit_zero (S := S256x256) hz2, View.readCov_unit_zero (S := S256x256) _ hz2]
  simp only [View.readAt_eq_ld, harg2.read_unread, harg3.read_unread, harg6.read_unread, harg7.read_unread, View.ld_unit_zero (S := S256x4096) hz2, View.ld_unit_zero (S := S256x256) hz2, View.ld_unit_zero (S := S256x1) hz2, View.readCov_unit_zero (S := S256x256) _ hz2, View.readCov_unit_zero (S := S256x1) _ hz2]

/-- Case D leaves in the sum-of-squares accumulator the zero block the reset has just stored plus this tile's row sums of squares. -/
theorem ssq_D (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S1x256x256 .f32) (harg4 : arg4.IsWhole) (arg5 : Memref sig .tc .vmem S1x1x256 .f32) (harg5 : arg5.IsWhole) (arg6 : Memref sig .tc .vmem S256x256 .f32) (harg6 : arg6.IsWhole) (arg7 : Memref sig .tc .vmem S256x1 .f32) (harg7 : arg7.IsWhole) (hc0 : cond0_0 i) (hc1 : ¬cond0_1 i) (hc2 : cond0_2 i) (hc3 : ¬cond0_3 i) (x0 x1 : Vec F S256x4096 .f32) :
    sout0_D_1 c i arg2 harg2 arg3 harg3 arg4 harg4 arg5 harg5 arg6 harg6 arg7 harg7 hc0 hc1 hc2 hc3 x0 x1 = k0_pay8 x1 (k0_pay2 (F := F)) := by
  unfold sout0_D_1
  rw [View.read_writes_eq_canon _ _ _ (scover0_D_1 c i arg2 harg2 arg3 harg3 arg4 harg4 arg5 harg5 arg6 harg6 arg7 harg7 hc0 hc1 hc2 hc3 x0 x1)]
  unfold kernelRun0_D
  dsimp only
  sl_unfold_words
  rw [View.canon_cons_unit_zero (S := S256x1) hz2, View.readCov_unit_zero (S := S256x1) _ hz2]
  simp only [View.readAt_eq_ld, harg2.read_unread, harg3.read_unread, harg6.read_unread, harg7.read_unread, View.ld_unit_zero (S := S256x4096) hz2, View.ld_unit_zero (S := S256x256) hz2, View.ld_unit_zero (S := S256x1) hz2, View.readCov_unit_zero (S := S256x256) _ hz2, View.readCov_unit_zero (S := S256x1) _ hz2]

/-- Case E leaves in the Gram accumulator what the point before left plus this tile's product of the second tensor's block with its transpose. -/
theorem acc_E (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S1x256x256 .f32) (harg4 : arg4.IsWhole) (arg5 : Memref sig .tc .vmem S1x1x256 .f32) (harg5 : arg5.IsWhole) (arg6 : Memref sig .tc .vmem S256x256 .f32) (harg6 : arg6.IsWhole) (arg7 : Memref sig .tc .vmem S256x1 .f32) (harg7 : arg7.IsWhole) (hc0 : ¬cond0_0 i) (hc1 : ¬cond0_1 i) (hc2 : cond0_2 i) (hc3 : ¬cond0_3 i) (x0 x1 : Vec F S256x4096 .f32) (xs0 : Vec F S256x256 .f32) (xs1 : Vec F S256x1 .f32) :
    sout0_E_0 c i arg2 harg2 arg3 harg3 arg4 harg4 arg5 harg5 arg6 harg6 arg7 harg7 hc0 hc1 hc2 hc3 x0 x1 xs0 xs1 = k0_pay7 x1 xs0 := by
  unfold sout0_E_0
  rw [View.read_writes_eq_canon _ _ _ (scover0_E_0 c i arg2 harg2 arg3 harg3 arg4 harg4 arg5 harg5 arg6 harg6 arg7 harg7 hc0 hc1 hc2 hc3 x0 x1 xs0 xs1)]
  unfold kernelRun0_E
  dsimp only
  sl_unfold_words
  rw [View.canon_unit_zero hz2]
  simp only [View.readAt_eq_ld, harg2.read_unread, harg3.read_unread, harg6.read_unread, harg7.read_unread, View.ld_unit_zero (S := S256x4096) hz2, View.ld_unit_zero (S := S256x256) hz2, View.ld_unit_zero (S := S256x1) hz2, View.readCov_unit_zero (S := S256x256) _ hz2, View.readCov_unit_zero (S := S256x1) _ hz2]

/-- Case E leaves in the sum-of-squares accumulator what the point before left plus this tile's row sums of squares. -/
theorem ssq_E (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S1x256x256 .f32) (harg4 : arg4.IsWhole) (arg5 : Memref sig .tc .vmem S1x1x256 .f32) (harg5 : arg5.IsWhole) (arg6 : Memref sig .tc .vmem S256x256 .f32) (harg6 : arg6.IsWhole) (arg7 : Memref sig .tc .vmem S256x1 .f32) (harg7 : arg7.IsWhole) (hc0 : ¬cond0_0 i) (hc1 : ¬cond0_1 i) (hc2 : cond0_2 i) (hc3 : ¬cond0_3 i) (x0 x1 : Vec F S256x4096 .f32) (xs0 : Vec F S256x256 .f32) (xs1 : Vec F S256x1 .f32) :
    sout0_E_1 c i arg2 harg2 arg3 harg3 arg4 harg4 arg5 harg5 arg6 harg6 arg7 harg7 hc0 hc1 hc2 hc3 x0 x1 xs0 xs1 = k0_pay8 x1 xs1 := by
  unfold sout0_E_1
  rw [View.read_writes_eq_canon _ _ _ (scover0_E_1 c i arg2 harg2 arg3 harg3 arg4 harg4 arg5 harg5 arg6 harg6 arg7 harg7 hc0 hc1 hc2 hc3 x0 x1 xs0 xs1)]
  unfold kernelRun0_E
  dsimp only
  sl_unfold_words
  rw [View.canon_unit_zero hz2]
  simp only [View.readAt_eq_ld, harg2.read_unread, harg3.read_unread, harg6.read_unread, harg7.read_unread, View.ld_unit_zero (S := S256x4096) hz2, View.ld_unit_zero (S := S256x256) hz2, View.ld_unit_zero (S := S256x1) hz2, View.readCov_unit_zero (S := S256x256) _ hz2, View.readCov_unit_zero (S := S256x1) _ hz2]

/-- Case F leaves in the Gram accumulator what the point before left plus this tile's product of the second tensor's block with its transpose. -/
theorem acc_F (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S1x256x256 .f32) (harg4 : arg4.IsWhole) (arg5 : Memref sig .tc .vmem S1x1x256 .f32) (harg5 : arg5.IsWhole) (arg6 : Memref sig .tc .vmem S256x256 .f32) (harg6 : arg6.IsWhole) (arg7 : Memref sig .tc .vmem S256x1 .f32) (harg7 : arg7.IsWhole) (hc0 : ¬cond0_0 i) (hc1 : ¬cond0_1 i) (hc2 : cond0_2 i) (hc3 : cond0_3 i) (x0 x1 : Vec F S256x4096 .f32) (xs0 : Vec F S256x256 .f32) (xs1 : Vec F S256x1 .f32) :
    sout0_F_0 c i arg2 harg2 arg3 harg3 arg4 harg4 arg5 harg5 arg6 harg6 arg7 harg7 hc0 hc1 hc2 hc3 x0 x1 xs0 xs1 = k0_pay7 x1 xs0 := by
  unfold sout0_F_0
  rw [View.read_writes_eq_canon _ _ _ (scover0_F_0 c i arg2 harg2 arg3 harg3 arg4 harg4 arg5 harg5 arg6 harg6 arg7 harg7 hc0 hc1 hc2 hc3 x0 x1 xs0 xs1)]
  unfold kernelRun0_F
  dsimp only
  sl_unfold_words
  rw [View.canon_unit_zero hz2]
  simp only [View.readAt_eq_ld, harg2.read_unread, harg3.read_unread, harg6.read_unread, harg7.read_unread, View.ld_unit_zero (S := S256x4096) hz2, View.ld_unit_zero (S := S256x256) hz2, View.ld_unit_zero (S := S256x1) hz2, View.readCov_unit_zero (S := S256x256) _ hz2, View.readCov_unit_zero (S := S256x1) _ hz2]

/-- Case F leaves in the sum-of-squares accumulator what the point before left plus this tile's row sums of squares. -/
theorem ssq_F (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S1x256x256 .f32) (harg4 : arg4.IsWhole) (arg5 : Memref sig .tc .vmem S1x1x256 .f32) (harg5 : arg5.IsWhole) (arg6 : Memref sig .tc .vmem S256x256 .f32) (harg6 : arg6.IsWhole) (arg7 : Memref sig .tc .vmem S256x1 .f32) (harg7 : arg7.IsWhole) (hc0 : ¬cond0_0 i) (hc1 : ¬cond0_1 i) (hc2 : cond0_2 i) (hc3 : cond0_3 i) (x0 x1 : Vec F S256x4096 .f32) (xs0 : Vec F S256x256 .f32) (xs1 : Vec F S256x1 .f32) :
    sout0_F_1 c i arg2 harg2 arg3 harg3 arg4 harg4 arg5 harg5 arg6 harg6 arg7 harg7 hc0 hc1 hc2 hc3 x0 x1 xs0 xs1 = k0_pay8 x1 xs1 := by
  unfold sout0_F_1
  rw [View.read_writes_eq_canon _ _ _ (scover0_F_1 c i arg2 harg2 arg3 harg3 arg4 harg4 arg5 harg5 arg6 harg6 arg7 harg7 hc0 hc1 hc2 hc3 x0 x1 xs0 xs1)]
  unfold kernelRun0_F
  dsimp only
  sl_unfold_words
  rw [View.canon_unit_zero hz2]
  simp only [View.readAt_eq_ld, harg2.read_unread, harg3.read_unread, harg6.read_unread, harg7.read_unread, View.ld_unit_zero (S := S256x4096) hz2, View.ld_unit_zero (S := S256x256) hz2, View.ld_unit_zero (S := S256x1) hz2, View.readCov_unit_zero (S := S256x256) _ hz2, View.readCov_unit_zero (S := S256x1) _ hz2]

/-- Case F (the tensor's last tile) copies the updated Gram accumulator into the output block. -/
theorem gramOut_F (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S1x256x256 .f32) (harg4 : arg4.IsWhole) (arg5 : Memref sig .tc .vmem S1x1x256 .f32) (harg5 : arg5.IsWhole) (arg6 : Memref sig .tc .vmem S256x256 .f32) (harg6 : arg6.IsWhole) (arg7 : Memref sig .tc .vmem S256x1 .f32) (harg7 : arg7.IsWhole) (hc0 : ¬cond0_0 i) (hc1 : ¬cond0_1 i) (hc2 : cond0_2 i) (hc3 : cond0_3 i) (x0 x1 : Vec F S256x4096 .f32) (xs0 : Vec F S256x256 .f32) (xs1 : Vec F S256x1 .f32) :
    out0_F_2 c i arg2 harg2 arg3 harg3 arg4 harg4 arg5 harg5 arg6 harg6 arg7 harg7 hc0 hc1 hc2 hc3 x0 x1 xs0 xs1 = k0_pay9 (k0_pay7 x1 xs0) := by
  unfold out0_F_2
  rw [View.read_writes_eq_canon _ _ _ (cover0_F_2 c i arg2 harg2 arg3 harg3 arg4 harg4 arg5 harg5 arg6 harg6 arg7 harg7 hc0 hc1 hc2 hc3 x0 x1 xs0 xs1)]
  unfold kernelRun0_F
  dsimp only
  sl_unfold_words
  rw [View.canon_unit_zero hz3]
  simp only [View.readAt_eq_ld, harg2.read_unread, harg3.read_unread, harg6.read_unread, harg7.read_unread, View.ld_unit_zero (S := S256x4096) hz2, View.ld_unit_zero (S := S256x256) hz2, View.ld_unit_zero (S := S256x1) hz2, View.readCov_unit_zero (S := S256x256) _ hz2, View.readCov_unit_zero (S := S256x1) _ hz2]

/-- Case F (the tensor's last tile) copies the updated sum-of-squares column, transposed to a row, into the output block. -/
theorem ssqOut_F (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S1x256x256 .f32) (harg4 : arg4.IsWhole) (arg5 : Memref sig .tc .vmem S1x1x256 .f32) (harg5 : arg5.IsWhole) (arg6 : Memref sig .tc .vmem S256x256 .f32) (harg6 : arg6.IsWhole) (arg7 : Memref sig .tc .vmem S256x1 .f32) (harg7 : arg7.IsWhole) (hc0 : ¬cond0_0 i) (hc1 : ¬cond0_1 i) (hc2 : cond0_2 i) (hc3 : cond0_3 i) (x0 x1 : Vec F S256x4096 .f32) (xs0 : Vec F S256x256 .f32) (xs1 : Vec F S256x1 .f32) :
    out0_F_3 c i arg2 harg2 arg3 harg3 arg4 harg4 arg5 harg5 arg6 harg6 arg7 harg7 hc0 hc1 hc2 hc3 x0 x1 xs0 xs1 = k0_pay10 (k0_pay8 x1 xs1) := by
  unfold out0_F_3
  rw [View.read_writes_eq_canon _ _ _ (cover0_F_3 c i arg2 harg2 arg3 harg3 arg4 harg4 arg5 harg5 arg6 harg6 arg7 harg7 hc0 hc1 hc2 hc3 x0 x1 xs0 xs1)]
  unfold kernelRun0_F
  dsimp only
  sl_unfold_words
  rw [View.canon_unit_zero hz3]
  simp only [View.readAt_eq_ld, harg2.read_unread, harg3.read_unread, harg6.read_unread, harg7.read_unread, View.ld_unit_zero (S := S256x4096) hz2, View.ld_unit_zero (S := S256x256) hz2, View.ld_unit_zero (S := S256x1) hz2, View.readCov_unit_zero (S := S256x256) _ hz2, View.readCov_unit_zero (S := S256x1) _ hz2]

end Cert.KernelIdeal.Region

end
-- ==== Proof.Accum.lean ====
/-
  The two accumulators point by point.  The grid's 32 points are numbered n = 16 t + k: tensor t (0 the first, 1 the
  second), tile k of its 16 column tiles.  After point n the Gram accumulator holds, for n's tensor, the zero block
  plus the products of tiles 0..k with their transposes, added in tile order; the sum-of-squares column likewise.
  At a tensor's last tile (k = 15) the two output blocks hold re-laid copies of the accumulators.
-/
import proofs.«414458_j86079734546728_3_alg».proof.Proof.Pieces

noncomputable section

namespace Cert.KernelIdeal.Region

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ)

/-- The first tensor's column block staged at point `t`, and the second's, at their literal type. -/
abbrev xb0 (c : Dev nD) (t : Fin cfg0.N) : Vec F S256x4096 .f32 := iblk m c 0 t
abbrev xb1 (c : Dev nD) (t : Fin cfg0.N) : Vec F S256x4096 .f32 := iblk m c 1 t

/-- One point's update of the Gram accumulator: at a tensor's first tile from the zero block, else from what the
    point before left; points below 16 use the first tensor's block, the others the second's. -/
def gStep (c : Dev nD) (n : ℕ) (h : n < cfg0.N) (prev : Vec F S256x256 .f32) : Vec F S256x256 .f32 :=
  if n % 16 = 0 then
    (if n < 16 then k0_pay4 (xb0 m c ⟨n, h⟩) (k0_pay1 (F := F)) else k0_pay7 (xb1 m c ⟨n, h⟩) (k0_pay1 (F := F)))
  else
    (if n < 16 then k0_pay4 (xb0 m c ⟨n, h⟩) prev else k0_pay7 (xb1 m c ⟨n, h⟩) prev)

/-- The same for the sum-of-squares column. -/
def sStep (c : Dev nD) (n : ℕ) (h : n < cfg0.N) (prev : Vec F S256x1 .f32) : Vec F S256x1 .f32 :=
  if n % 16 = 0 then
    (if n < 16 then k0_pay5 (xb0 m c ⟨n, h⟩) (k0_pay2 (F := F)) else k0_pay8 (xb1 m c ⟨n, h⟩) (k0_pay2 (F := F)))
  else
    (if n < 16 then k0_pay5 (xb0 m c ⟨n, h⟩) prev else k0_pay8 (xb1 m c ⟨n, h⟩) prev)

/-- The Gram accumulator after point `n`. -/
def gAcc (c : Dev nD) : (n : ℕ) → n < cfg0.N → Vec F S256x256 .f32
  | 0, h => gStep m c 0 h (k0_pay1 (F := F))
  | n + 1, h => gStep m c (n + 1) h (gAcc c n (Nat.lt_of_succ_lt h))

/-- The sum-of-squares column after point `n`. -/
def sAcc (c : Dev nD) : (n : ℕ) → n < cfg0.N → Vec F S256x1 .f32
  | 0, h => sStep m c 0 h (k0_pay2 (F := F))
  | n + 1, h => sStep m c (n + 1) h (sAcc c n (Nat.lt_of_succ_lt h))

/-- What the frame's point-by-point contents hold in the two accumulators IS `gAcc` / `sAcc`: by induction on the
    point, the case of each point read off its number. -/
theorem outs_acc (c : Dev nD) : ∀ (n : ℕ) (h : n < cfg0.N),
    (outsAt0 m c n h).2.2.1 = gAcc m c n h ∧ (outsAt0 m c n h).2.2.2 = sAcc m c n h
  | 0, h => by
    let t : Fin cfg0.N := ⟨0, h⟩
    have h0 : t.val % 16 = 0 := rfl
    have h1 : t.val < 16 := by show (0 : ℕ) < 16; omega
    have h2 : ¬16 ≤ t.val := by show ¬16 ≤ (0 : ℕ); omega
    have h3 : ¬t.val % 16 = 15 := by show ¬(0 : ℕ) % 16 = 15; omega
    show (outsAt0 m c t.val t.isLt).2.2.1 = _ ∧ (outsAt0 m c t.val t.isLt).2.2.2 = _
    rw [outsAt0_A m c t h0 h1 h2 h3]
    dsimp only
    refine ⟨(acc_A c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (xb0 m c t) (xb1 m c t)).trans ?_, (ssq_A c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (xb0 m c t) (xb1 m c t)).trans ?_⟩
    · show _ = gStep m c 0 h _; unfold gStep; rw [if_pos rfl, if_pos (by decide)]
    · show _ = sStep m c 0 h _; unfold sStep; rw [if_pos rfl, if_pos (by decide)]
  | n + 1, h => by
    have ih := outs_acc c n (Nat.lt_of_succ_lt h)
    have hN : n + 1 < 32 := lt_of_lt_of_eq h (show cfg0.N = 32 from N_0)
    let t : Fin cfg0.N := ⟨n + 1, h⟩
    have hprev : ∀ hp, (outsAt0 m c (t.val - 1) hp) = outsAt0 m c n (Nat.lt_of_succ_lt h) := fun _ => rfl
    show (outsAt0 m c t.val t.isLt).2.2.1 = gStep m c (n + 1) h (gAcc m c n _) ∧ (outsAt0 m c t.val t.isLt).2.2.2 = sStep m c (n + 1) h (sAcc m c n _)
    by_cases h0 : t.val % 16 = 0
    · have h1 : ¬t.val < 16 := by show ¬(n + 1 < 16); have : (n + 1) % 16 = 0 := h0; omega
      have h2 : 16 ≤ t.val := by show 16 ≤ n + 1; have : (n + 1) % 16 = 0 := h0; omega
      have h3 : ¬t.val % 16 = 15 := by show ¬((n + 1) % 16 = 15); have : (n + 1) % 16 = 0 := h0; omega
      rw [outsAt0_D m c t h0 h1 h2 h3]
      dsimp only
      refine ⟨(acc_D c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) ((hcond0_2 t).mpr h2) (fun h => h3 ((hcond0_3 t).mp h)) (xb0 m c t) (xb1 m c t)).trans ?_, (ssq_D c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) ((hcond0_2 t).mpr h2) (fun h => h3 ((hcond0_3 t).mp h)) (xb0 m c t) (xb1 m c t)).trans ?_⟩
      · unfold gStep; rw [if_pos h0, if_neg h1]
      · unfold sStep; rw [if_pos h0, if_neg h1]
    · by_cases h1 : t.val < 16
      · have h2 : ¬16 ≤ t.val := by omega
        by_cases h3 : t.val % 16 = 15
        · rw [outsAt0_C m c t h0 h1 h2 h3]
          dsimp only
          refine ⟨(acc_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (fun h => h2 ((hcond0_2 t).mp h)) ((hcond0_3 t).mpr h3) (xb0 m c t) (xb1 m c t) (outsAt0 m c (t.val - 1) (Nat.lt_of_le_of_lt (Nat.sub_le _ _) t.isLt)).2.2.1 (outsAt0 m c (t.val - 1) (Nat.lt_of_le_of_lt (Nat.sub_le _ _) t.isLt)).2.2.2).trans ?_, (ssq_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (fun h => h2 ((hcond0_2 t).mp h)) ((hcond0_3 t).mpr h3) (xb0 m c t) (xb1 m c t) (outsAt0 m c (t.val - 1) (Nat.lt_of_le_of_lt (Nat.sub_le _ _) t.isLt)).2.2.1 (outsAt0 m c (t.val - 1) (Nat.lt_of_le_of_lt (Nat.sub_le _ _) t.isLt)).2.2.2).trans ?_⟩
          · unfold gStep; rw [if_neg h0, if_pos h1, hprev, ih.1]
          · unfold sStep; rw [if_neg h0, if_pos h1, hprev, ih.2]
        · rw [outsAt0_B m c t h0 h1 h2 h3]
          dsimp only
          refine ⟨(acc_B c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (xb0 m c t) (xb1 m c t) (outsAt0 m c (t.val - 1) (Nat.lt_of_le_of_lt (Nat.sub_le _ _) t.isLt)).2.2.1 (outsAt0 m c (t.val - 1) (Nat.lt_of_le_of_lt (Nat.sub_le _ _) t.isLt)).2.2.2).trans ?_, (ssq_B c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (xb0 m c t) (xb1 m c t) (outsAt0 m c (t.val - 1) (Nat.lt_of_le_of_lt (Nat.sub_le _ _) t.isLt)).2.2.1 (outsAt0 m c (t.val - 1) (Nat.lt_of_le_of_lt (Nat.sub_le _ _) t.isLt)).2.2.2).trans ?_⟩
          · unfold gStep; rw [if_neg h0, if_pos h1, hprev, ih.1]
          · unfold sStep; rw [if_neg h0, if_pos h1, hprev, ih.2]
      · have h2 : 16 ≤ t.val := by omega
        by_cases h3 : t.val % 16 = 15
        · rw [outsAt0_F m c t h0 h1 h2 h3]
          dsimp only
          refine ⟨(acc_F c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (xb0 m c t) (xb1 m c t) (outsAt0 m c (t.val - 1) (Nat.lt_of_le_of_lt (Nat.sub_le _ _) t.isLt)).2.2.1 (outsAt0 m c (t.val - 1) (Nat.lt_of_le_of_lt (Nat.sub_le _ _) t.isLt)).2.2.2).trans ?_, (ssq_F c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (xb0 m c t) (xb1 m c t) (outsAt0 m c (t.val - 1) (Nat.lt_of_le_of_lt (Nat.sub_le _ _) t.isLt)).2.2.1 (outsAt0 m c (t.val - 1) (Nat.lt_of_le_of_lt (Nat.sub_le _ _) t.isLt)).2.2.2).trans ?_⟩
          · unfold gStep; rw [if_neg h0, if_neg h1, hprev, ih.1]
          · unfold sStep; rw [if_neg h0, if_neg h1, hprev, ih.2]
        · rw [outsAt0_E m c t h0 h1 h2 h3]
          dsimp only
          refine ⟨(acc_E c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (xb0 m c t) (xb1 m c t) (outsAt0 m c (t.val - 1) (Nat.lt_of_le_of_lt (Nat.sub_le _ _) t.isLt)).2.2.1 (outsAt0 m c (t.val - 1) (Nat.lt_of_le_of_lt (Nat.sub_le _ _) t.isLt)).2.2.2).trans ?_, (ssq_E c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (xb0 m c t) (xb1 m c t) (outsAt0 m c (t.val - 1) (Nat.lt_of_le_of_lt (Nat.sub_le _ _) t.isLt)).2.2.1 (outsAt0 m c (t.val - 1) (Nat.lt_of_le_of_lt (Nat.sub_le _ _) t.isLt)).2.2.2).trans ?_⟩
          · unfold gStep; rw [if_neg h0, if_neg h1, hprev, ih.1]
          · unfold sStep; rw [if_neg h0, if_neg h1, hprev, ih.2]

/-- At a tensor's last tile the two output blocks hold the accumulators, re-laid. -/
theorem outs_flush (c : Dev nD) (t : Fin cfg0.N) (h3 : t.val % 16 = 15) :
    (outsAt0 m c t.val t.isLt).1 = k0_pay9 (gAcc m c t.val t.isLt)
      ∧ (outsAt0 m c t.val t.isLt).2.1 = k0_pay10 (sAcc m c t.val t.isLt) := by
  have hN : t.val < 32 := lt_of_lt_of_eq t.isLt (show cfg0.N = 32 from N_0)
  have h0 : ¬t.val % 16 = 0 := by omega
  have hacc := outs_acc m c t.val t.isLt
  by_cases h1 : t.val < 16
  · have h2 : ¬16 ≤ t.val := by omega
    have e := outsAt0_C m c t h0 h1 h2 h3
    rw [e] at hacc ⊢
    dsimp only at hacc ⊢
    refine ⟨(gramOut_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (fun h => h2 ((hcond0_2 t).mp h)) ((hcond0_3 t).mpr h3) (xb0 m c t) (xb1 m c t) (outsAt0 m c (t.val - 1) (Nat.lt_of_le_of_lt (Nat.sub_le _ _) t.isLt)).2.2.1 (outsAt0 m c (t.val - 1) (Nat.lt_of_le_of_lt (Nat.sub_le _ _) t.isLt)).2.2.2).trans ?_, (ssqOut_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (fun h => h2 ((hcond0_2 t).mp h)) ((hcond0_3 t).mpr h3) (xb0 m c t) (xb1 m c t) (outsAt0 m c (t.val - 1) (Nat.lt_of_le_of_lt (Nat.sub_le _ _) t.isLt)).2.2.1 (outsAt0 m c (t.val - 1) (Nat.lt_of_le_of_lt (Nat.sub_le _ _) t.isLt)).2.2.2).trans ?_⟩
    · exact congrArg k0_pay9 ((acc_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (fun h => h2 ((hcond0_2 t).mp h)) ((hcond0_3 t).mpr h3) (xb0 m c t) (xb1 m c t) (outsAt0 m c (t.val - 1) (Nat.lt_of_le_of_lt (Nat.sub_le _ _) t.isLt)).2.2.1 (outsAt0 m c (t.val - 1) (Nat.lt_of_le_of_lt (Nat.sub_le _ _) t.isLt)).2.2.2).symm.trans hacc.1)
    · exact congrArg k0_pay10 ((ssq_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (fun h => h2 ((hcond0_2 t).mp h)) ((hcond0_3 t).mpr h3) (xb0 m c t) (xb1 m c t) (outsAt0 m c (t.val - 1) (Nat.lt_of_le_of_lt (Nat.sub_le _ _) t.isLt)).2.2.1 (outsAt0 m c (t.val - 1) (Nat.lt_of_le_of_lt (Nat.sub_le _ _) t.isLt)).2.2.2).symm.trans hacc.2)
  · have h2 : 16 ≤ t.val := by omega
    have e := outsAt0_F m c t h0 h1 h2 h3
    rw [e] at hacc ⊢
    dsimp only at hacc ⊢
    refine ⟨(gramOut_F c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (xb0 m c t) (xb1 m c t) (outsAt0 m c (t.val - 1) (Nat.lt_of_le_of_lt (Nat.sub_le _ _) t.isLt)).2.2.1 (outsAt0 m c (t.val - 1) (Nat.lt_of_le_of_lt (Nat.sub_le _ _) t.isLt)).2.2.2).trans ?_, (ssqOut_F c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (xb0 m c t) (xb1 m c t) (outsAt0 m c (t.val - 1) (Nat.lt_of_le_of_lt (Nat.sub_le _ _) t.isLt)).2.2.1 (outsAt0 m c (t.val - 1) (Nat.lt_of_le_of_lt (Nat.sub_le _ _) t.isLt)).2.2.2).trans ?_⟩
    · exact congrArg k0_pay9 ((acc_F c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (xb0 m c t) (xb1 m c t) (outsAt0 m c (t.val - 1) (Nat.lt_of_le_of_lt (Nat.sub_le _ _) t.isLt)).2.2.1 (outsAt0 m c (t.val - 1) (Nat.lt_of_le_of_lt (Nat.sub_le _ _) t.isLt)).2.2.2).symm.trans hacc.1)
    · exact congrArg k0_pay10 ((ssq_F c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (xb0 m c t) (xb1 m c t) (outsAt0 m c (t.val - 1) (Nat.lt_of_le_of_lt (Nat.sub_le _ _) t.isLt)).2.2.1 (outsAt0 m c (t.val - 1) (Nat.lt_of_le_of_lt (Nat.sub_le _ _) t.isLt)).2.2.2).symm.trans hacc.2)

end Cert.KernelIdeal.Region

end
-- ==== Proof.Arrays.lean ====
/-
  What the region leaves in its two output arrays.  Output 2 ([2,256,256]) is written back twice, at each tensor's
  last tile: layer t is the Gram accumulator after point 16 t + 15, under a leading unit axis.  Output 3 ([2,1,256])
  likewise: row t is the sum-of-squares column after point 16 t + 15, transposed.  The two blocks written back
  (block index (t,0,0) of sizes [1,256,256] and [1,1,256]) cover each array.
-/
import proofs.«414458_j86079734546728_3_alg».proof.Proof.Accum
import Idealize.ShloMosaic.Lib.Pipeline.Value
import Idealize.ShloMosaic.Lib.ValueIdx

noncomputable section

namespace Cert.KernelIdeal.Region

open Idealize.ShloMosaic Idealize.ShloMosaic.TcCoe Idealize.SL.Sem Idealize.ShloMosaic.ValueIdx
open Idealize.ShloMosaic.Pipeline (Dat)
open Cert.KernelIdeal Cert.KernelIdeal.Gen

variable {F : FTy → Type} [FloatOps F]
variable (m : (ℓ : Loc nD τ sig) → Buf (Elt F) ℓ)

theorem lt15 : 15 < cfg0.N := by rw [show cfg0.N = 32 from N_0]; decide
theorem lt31 : 31 < cfg0.N := by rw [show cfg0.N = 32 from N_0]; decide

/-- The Gram array the region leaves: layer 0 from the accumulator after point 15, layer 1 after point 31. -/
def gramArr (c : Dev nD) : Buf (Elt F) ((c : Thread nD τ).loc main_v2_0) :=
  fun idx =>
    if (idx 0).val = 0 then k0_pay9 (gAcc m c 15 lt15) (ix3 (0 : Fin 1) (idx 1) (idx 2))
    else k0_pay9 (gAcc m c 31 lt31) (ix3 (0 : Fin 1) (idx 1) (idx 2))

/-- The sum-of-squares array the region leaves: row 0 from the column after point 15, row 1 after point 31. -/
def sumsqArr (c : Dev nD) : Buf (Elt F) ((c : Thread nD τ).loc main_v2_1) :=
  fun idx =>
    if (idx 0).val = 0 then k0_pay10 (sAcc m c 15 lt15) (ix3 (0 : Fin 1) (idx 1) (idx 2))
    else k0_pay10 (sAcc m c 31 lt31) (ix3 (0 : Fin 1) (idx 1) (idx 2))

/-- On layer 0 of the array `gramArr` is the re-laid accumulator after point 15. -/
private theorem gramArr_zero (c : Dev nD) (idx : ((c : Thread nD τ).loc main_v2_0).2.ty.Idx) (h : (idx 0).val = 0) :
    gramArr m c idx = k0_pay9 (gAcc m c 15 lt15) (ix3 (0 : Fin 1) (idx 1) (idx 2)) := if_pos h

/-- On layer 1 of the array `gramArr` is the re-laid accumulator after point 31. -/
private theorem gramArr_succ (c : Dev nD) (idx : ((c : Thread nD τ).loc main_v2_0).2.ty.Idx) (h : ¬(idx 0).val = 0) :
    gramArr m c idx = k0_pay9 (gAcc m c 31 lt31) (ix3 (0 : Fin 1) (idx 1) (idx 2)) := if_neg h

/-- On layer 0 of the array `sumsqArr` is the re-laid accumulator after point 15. -/
private theorem sumsqArr_zero (c : Dev nD) (idx : ((c : Thread nD τ).loc main_v2_1).2.ty.Idx) (h : (idx 0).val = 0) :
    sumsqArr m c idx = k0_pay10 (sAcc m c 15 lt15) (ix3 (0 : Fin 1) (idx 1) (idx 2)) := if_pos h

/-- On layer 1 of the array `sumsqArr` is the re-laid accumulator after point 31. -/
private theorem sumsqArr_succ (c : Dev nD) (idx : ((c : Thread nD τ).loc main_v2_1).2.ty.Idx) (h : ¬(idx 0).val = 0) :
    sumsqArr m c idx = k0_pay10 (sAcc m c 31 lt31) (ix3 (0 : Fin 1) (idx 1) (idx 2)) := if_neg h

/-- Each write-back of output 2 (points 15 and 31) writes block (t, 0, 0) of `gramArr`: the block's embedding puts its
    index y at (t, y 1, y 2), so the leading coordinate is 0 at point 15 and 1 at point 31, and the other two are the
    accumulator's own. -/
private theorem flushed2_eq (c : Dev nD) (t : Fin cfg0.N) (hf : (cfg0.win 2).flush t = true) :
    (dats m 0 c).flushed 2 t = ((cfg0.win 2).blk t).view.read (Elt F) (gramArr m c) := by
  have hN : cfg0.N = 32 := N_0
  have h15 : t.val % 16 = 15 := (flush0_2 t).mp hf
  have hlt := t.isLt
  have ht : t.val = 15 ∨ t.val = 31 := by omega
  show (cfg0.win 2).cut (grid0.coords t) ((dats m 0 c).after 2 t) = _
  rw [after0_2, (outs_flush m c t h15).1]
  rcases ht with h | h
  · obtain rfl : t = ⟨15, lt15⟩ := Fin.ext h
    funext y
    rw [View.read_apply]
    have hy0 : (y 0).val < win0_2.xsize (grid0.coords ⟨15, lt15⟩) 0 := (y 0).isLt
    rw [show win0_2.xsize (grid0.coords ⟨15, lt15⟩) 0 = 1 from by decide +kernel] at hy0
    have e0 : ((((cfg0.win 2).blk ⟨15, lt15⟩).view.emb y) 0).val = 0 := by
      show win0_2.index ⟨15, lt15⟩ 0 * 1 + 1 * (y 0).val = 0
      rw [show win0_2.index ⟨15, lt15⟩ 0 = 0 from by decide +kernel]; omega
    show k0_pay9 (gAcc m c 15 lt15) _ = gramArr m c _
    rw [gramArr_zero m c _ e0]
    refine congrArg (k0_pay9 (gAcc m c 15 lt15)) (funext fun a => Fin.ext ?_)
    match a with
    | ⟨0, _⟩ => show (y 0).val = 0; omega
    | ⟨1, _⟩ => show (y 1).val = win0_2.index ⟨15, lt15⟩ 1 * 256 + 1 * (y 1).val
                rw [show win0_2.index ⟨15, lt15⟩ 1 = 0 from by decide +kernel]; omega
    | ⟨2, _⟩ => show (y 2).val = win0_2.index ⟨15, lt15⟩ 2 * 256 + 1 * (y 2).val
                rw [show win0_2.index ⟨15, lt15⟩ 2 = 0 from by decide +kernel]; omega
  · obtain rfl : t = ⟨31, lt31⟩ := Fin.ext h
    funext y
    rw [View.read_apply]
    have hy0 : (y 0).val < win0_2.xsize (grid0.coords ⟨31, lt31⟩) 0 := (y 0).isLt
    rw [show win0_2.xsize (grid0.coords ⟨31, lt31⟩) 0 = 1 from by decide +kernel] at hy0
    have e0 : ((((cfg0.win 2).blk ⟨31, lt31⟩).view.emb y) 0).val = 1 := by
      show win0_2.index ⟨31, lt31⟩ 0 * 1 + 1 * (y 0).val = 1
      rw [show win0_2.index ⟨31, lt31⟩ 0 = 1 from by decide +kernel]; omega
    show k0_pay9 (gAcc m c 31 lt31) _ = gramArr m c _
    rw [gramArr_succ m c _ (by rw [e0]; decide)]
    refine congrArg (k0_pay9 (gAcc m c 31 lt31)) (funext fun a => Fin.ext ?_)
    match a with
    | ⟨0, _⟩ => show (y 0).val = 0; omega
    | ⟨1, _⟩ => show (y 1).val = win0_2.index ⟨31, lt31⟩ 1 * 256 + 1 * (y 1).val
                rw [show win0_2.index ⟨31, lt31⟩ 1 = 0 from by decide +kernel]; omega
    | ⟨2, _⟩ => show (y 2).val = win0_2.index ⟨31, lt31⟩ 2 * 256 + 1 * (y 2).val
                rw [show win0_2.index ⟨31, lt31⟩ 2 = 0 from by decide +kernel]; omega

/-- Each write-back of output 3 (points 15 and 31) writes block (t, 0, 0) of `sumsqArr`: the block's embedding puts its
    index y at (t, y 1, y 2), so the leading coordinate is 0 at point 15 and 1 at point 31, and the other two are the
    accumulator's own. -/
private theorem flushed3_eq (c : Dev nD) (t : Fin cfg0.N) (hf : (cfg0.win 3).flush t = true) :
    (dats m 0 c).flushed 3 t = ((cfg0.win 3).blk t).view.read (Elt F) (sumsqArr m c) := by
  have hN : cfg0.N = 32 := N_0
  have h15 : t.val % 16 = 15 := (flush0_3 t).mp hf
  have hlt := t.isLt
  have ht : t.val = 15 ∨ t.val = 31 := by omega
  show (cfg0.win 3).cut (grid0.coords t) ((dats m 0 c).after 3 t) = _
  rw [after0_3, (outs_flush m c t h15).2]
  rcases ht with h | h
  · obtain rfl : t = ⟨15, lt15⟩ := Fin.ext h
    funext y
    rw [View.read_apply]
    have hy0 : (y 0).val < win0_3.xsize (grid0.coords ⟨15, lt15⟩) 0 := (y 0).isLt
    rw [show win0_3.xsize (grid0.coords ⟨15, lt15⟩) 0 = 1 from by decide +kernel] at hy0
    have e0 : ((((cfg0.win 3).blk ⟨15, lt15⟩).view.emb y) 0).val = 0 := by
      show win0_3.index ⟨15, lt15⟩ 0 * 1 + 1 * (y 0).val = 0
      rw [show win0_3.index ⟨15, lt15⟩ 0 = 0 from by decide +kernel]; omega
    show k0_pay10 (sAcc m c 15 lt15) _ = sumsqArr m c _
    rw [sumsqArr_zero m c _ e0]
    refine congrArg (k0_pay10 (sAcc m c 15 lt15)) (funext fun a => Fin.ext ?_)
    match a with
    | ⟨0, _⟩ => show (y 0).val = 0; omega
    | ⟨1, _⟩ => show (y 1).val = win0_3.index ⟨15, lt15⟩ 1 * 1 + 1 * (y 1).val
                rw [show win0_3.index ⟨15, lt15⟩ 1 = 0 from by decide +kernel]; omega
    | ⟨2, _⟩ => show (y 2).val = win0_3.index ⟨15, lt15⟩ 2 * 256 + 1 * (y 2).val
                rw [show win0_3.index ⟨15, lt15⟩ 2 = 0 from by decide +kernel]; omega
  · obtain rfl : t = ⟨31, lt31⟩ := Fin.ext h
    funext y
    rw [View.read_apply]
    have hy0 : (y 0).val < win0_3.xsize (grid0.coords ⟨31, lt31⟩) 0 := (y 0).isLt
    rw [show win0_3.xsize (grid0.coords ⟨31, lt31⟩) 0 = 1 from by decide +kernel] at hy0
    have e0 : ((((cfg0.win 3).blk ⟨31, lt31⟩).view.emb y) 0).val = 1 := by
      show win0_3.index ⟨31, lt31⟩ 0 * 1 + 1 * (y 0).val = 1
      rw [show win0_3.index ⟨31, lt31⟩ 0 = 1 from by decide +kernel]; omega
    show k0_pay10 (sAcc m c 31 lt31) _ = sumsqArr m c _
    rw [sumsqArr_succ m c _ (by rw [e0]; decide)]
    refine congrArg (k0_pay10 (sAcc m c 31 lt31)) (funext fun a => Fin.ext ?_)
    match a with
    | ⟨0, _⟩ => show (y 0).val = 0; omega
    | ⟨1, _⟩ => show (y 1).val = win0_3.index ⟨31, lt31⟩ 1 * 1 + 1 * (y 1).val
                rw [show win0_3.index ⟨31, lt31⟩ 1 = 0 from by decide +kernel]; omega
    | ⟨2, _⟩ => show (y 2).val = win0_3.index ⟨31, lt31⟩ 2 * 256 + 1 * (y 2).val
                rw [show win0_3.index ⟨31, lt31⟩ 2 = 0 from by decide +kernel]; omega

/-- After the region the first output array holds `gramArr`. -/
theorem final2 (c : Dev nD) : (dats m 0 c).arrAt 2 cfg0.N = gramArr m c := by
  refine (dats m 0 c).arrAt_eq_of_cover 2 _ (flushed2_eq m c) fun idx => ?_
  have h0 : (idx 0 : Nat) < 2 := (idx 0).isLt
  have h1 : (idx 1 : Nat) < 256 := (idx 1).isLt
  have h2 : (idx 2 : Nat) < 256 := (idx 2).isLt
  by_cases hz : (idx 0 : Nat) = 0
  · refine ⟨⟨15, lt15⟩, (flush0_2 _).mpr rfl, ?_⟩
    show idx ∈ ((View.whole main_v2_0).slice (win0_2.rect ⟨15, lt15⟩)).set
    rw [View.set_slice_whole, Rect.mem_set_unit]
    intro a
    match a with
    | ⟨0, _⟩ =>
      show win0_2.index ⟨15, lt15⟩ 0 * win0_2.size 0 ≤ (idx 0 : Nat) ∧ (idx 0 : Nat) < win0_2.index ⟨15, lt15⟩ 0 * win0_2.size 0 + win0_2.xsize (grid0.coords ⟨15, lt15⟩) 0
      rw [show win0_2.index ⟨15, lt15⟩ 0 * win0_2.size 0 = 0 from by decide +kernel, show win0_2.xsize (grid0.coords ⟨15, lt15⟩) 0 = 1 from by decide +kernel]; omega
    | ⟨1, _⟩ =>
      show win0_2.index ⟨15, lt15⟩ 1 * win0_2.size 1 ≤ (idx 1 : Nat) ∧ (idx 1 : Nat) < win0_2.index ⟨15, lt15⟩ 1 * win0_2.size 1 + win0_2.xsize (grid0.coords ⟨15, lt15⟩) 1
      rw [show win0_2.index ⟨15, lt15⟩ 1 * win0_2.size 1 = 0 from by decide +kernel, show win0_2.xsize (grid0.coords ⟨15, lt15⟩) 1 = 256 from by decide +kernel]; omega
    | ⟨2, _⟩ =>
      show win0_2.index ⟨15, lt15⟩ 2 * win0_2.size 2 ≤ (idx 2 : Nat) ∧ (idx 2 : Nat) < win0_2.index ⟨15, lt15⟩ 2 * win0_2.size 2 + win0_2.xsize (grid0.coords ⟨15, lt15⟩) 2
      rw [show win0_2.index ⟨15, lt15⟩ 2 * win0_2.size 2 = 0 from by decide +kernel, show win0_2.xsize (grid0.coords ⟨15, lt15⟩) 2 = 256 from by decide +kernel]; omega
  · refine ⟨⟨31, lt31⟩, (flush0_2 _).mpr rfl, ?_⟩
    show idx ∈ ((View.whole main_v2_0).slice (win0_2.rect ⟨31, lt31⟩)).set
    rw [View.set_slice_whole, Rect.mem_set_unit]
    intro a
    match a with
    | ⟨0, _⟩ =>
      show win0_2.index ⟨31, lt31⟩ 0 * win0_2.size 0 ≤ (idx 0 : Nat) ∧ (idx 0 : Nat) < win0_2.index ⟨31, lt31⟩ 0 * win0_2.size 0 + win0_2.xsize (grid0.coords ⟨31, lt31⟩) 0
      rw [show win0_2.index ⟨31, lt31⟩ 0 * win0_2.size 0 = 1 from by decide +kernel, show win0_2.xsize (grid0.coords ⟨31, lt31⟩) 0 = 1 from by decide +kernel]; omega
    | ⟨1, _⟩ =>
      show win0_2.index ⟨31, lt31⟩ 1 * win0_2.size 1 ≤ (idx 1 : Nat) ∧ (idx 1 : Nat) < win0_2.index ⟨31, lt31⟩ 1 * win0_2.size 1 + win0_2.xsize (grid0.coords ⟨31, lt31⟩) 1
      rw [show win0_2.index ⟨31, lt31⟩ 1 * win0_2.size 1 = 0 from by decide +kernel, show win0_2.xsize (grid0.coords ⟨31, lt31⟩) 1 = 256 from by decide +kernel]; omega
    | ⟨2, _⟩ =>
      show win0_2.index ⟨31, lt31⟩ 2 * win0_2.size 2 ≤ (idx 2 : Nat) ∧ (idx 2 : Nat) < win0_2.index ⟨31, lt31⟩ 2 * win0_2.size 2 + win0_2.xsize (grid0.coords ⟨31, lt31⟩) 2
      rw [show win0_2.index ⟨31, lt31⟩ 2 * win0_2.size 2 = 0 from by decide +kernel, show win0_2.xsize (grid0.coords ⟨31, lt31⟩) 2 = 256 from by decide +kernel]; omega

/-- After the region the second output array holds `sumsqArr`. -/
theorem final3 (c : Dev nD) : (dats m 0 c).arrAt 3 cfg0.N = sumsqArr m c := by
  refine (dats m 0 c).arrAt_eq_of_cover 3 _ (flushed3_eq m c) fun idx => ?_
  have h0 : (idx 0 : Nat) < 2 := (idx 0).isLt
  have h1 : (idx 1 : Nat) < 1 := (idx 1).isLt
  have h2 : (idx 2 : Nat) < 256 := (idx 2).isLt
  by_cases hz : (idx 0 : Nat) = 0
  · refine ⟨⟨15, lt15⟩, (flush0_3 _).mpr rfl, ?_⟩
    show idx ∈ ((View.whole main_v2_1).slice (win0_3.rect ⟨15, lt15⟩)).set
    rw [View.set_slice_whole, Rect.mem_set_unit]
    intro a
    match a with
    | ⟨0, _⟩ =>
      show win0_3.index ⟨15, lt15⟩ 0 * win0_3.size 0 ≤ (idx 0 : Nat) ∧ (idx 0 : Nat) < win0_3.index ⟨15, lt15⟩ 0 * win0_3.size 0 + win0_3.xsize (grid0.coords ⟨15, lt15⟩) 0
      rw [show win0_3.index ⟨15, lt15⟩ 0 * win0_3.size 0 = 0 from by decide +kernel, show win0_3.xsize (grid0.coords ⟨15, lt15⟩) 0 = 1 from by decide +kernel]; omega
    | ⟨1, _⟩ =>
      show win0_3.index ⟨15, lt15⟩ 1 * win0_3.size 1 ≤ (idx 1 : Nat) ∧ (idx 1 : Nat) < win0_3.index ⟨15, lt15⟩ 1 * win0_3.size 1 + win0_3.xsize (grid0.coords ⟨15, lt15⟩) 1
      rw [show win0_3.index ⟨15, lt15⟩ 1 * win0_3.size 1 = 0 from by decide +kernel, show win0_3.xsize (grid0.coords ⟨15, lt15⟩) 1 = 1 from by decide +kernel]; omega
    | ⟨2, _⟩ =>
      show win0_3.index ⟨15, lt15⟩ 2 * win0_3.size 2 ≤ (idx 2 : Nat) ∧ (idx 2 : Nat) < win0_3.index ⟨15, lt15⟩ 2 * win0_3.size 2 + win0_3.xsize (grid0.coords ⟨15, lt15⟩) 2
      rw [show win0_3.index ⟨15, lt15⟩ 2 * win0_3.size 2 = 0 from by decide +kernel, show win0_3.xsize (grid0.coords ⟨15, lt15⟩) 2 = 256 from by decide +kernel]; omega
  · refine ⟨⟨31, lt31⟩, (flush0_3 _).mpr rfl, ?_⟩
    show idx ∈ ((View.whole main_v2_1).slice (win0_3.rect ⟨31, lt31⟩)).set
    rw [View.set_slice_whole, Rect.mem_set_unit]
    intro a
    match a with
    | ⟨0, _⟩ =>
      show win0_3.index ⟨31, lt31⟩ 0 * win0_3.size 0 ≤ (idx 0 : Nat) ∧ (idx 0 : Nat) < win0_3.index ⟨31, lt31⟩ 0 * win0_3.size 0 + win0_3.xsize (grid0.coords ⟨31, lt31⟩) 0
      rw [show win0_3.index ⟨31, lt31⟩ 0 * win0_3.size 0 = 1 from by decide +kernel, show win0_3.xsize (grid0.coords ⟨31, lt31⟩) 0 = 1 from by decide +kernel]; omega
    | ⟨1, _⟩ =>
      show win0_3.index ⟨31, lt31⟩ 1 * win0_3.size 1 ≤ (idx 1 : Nat) ∧ (idx 1 : Nat) < win0_3.index ⟨31, lt31⟩ 1 * win0_3.size 1 + win0_3.xsize (grid0.coords ⟨31, lt31⟩) 1
      rw [show win0_3.index ⟨31, lt31⟩ 1 * win0_3.size 1 = 0 from by decide +kernel, show win0_3.xsize (grid0.coords ⟨31, lt31⟩) 1 = 1 from by decide +kernel]; omega
    | ⟨2, _⟩ =>
      show win0_3.index ⟨31, lt31⟩ 2 * win0_3.size 2 ≤ (idx 2 : Nat) ∧ (idx 2 : Nat) < win0_3.index ⟨31, lt31⟩ 2 * win0_3.size 2 + win0_3.xsize (grid0.coords ⟨31, lt31⟩) 2
      rw [show win0_3.index ⟨31, lt31⟩ 2 * win0_3.size 2 = 0 from by decide +kernel, show win0_3.xsize (grid0.coords ⟨31, lt31⟩) 2 = 256 from by decide +kernel]; omega

end Cert.KernelIdeal.Region

end
-- ==== Proof.Spec.lean ====
/-
  The shared vocabulary of this certificate's value proof, over literal shapes and free of any program.

  Both programs end in the same computation once a 256 x 256 similarity matrix per tensor is known:
  the diagonal is masked to -inf, each row goes through a softmax (subtract the row maximum, exponentiate,
  divide by the row sum), a small epsilon is added, and the two probability matrices p (first tensor) and
  q (second tensor) give the loss  (sum over all entries of q * (log q - log p)) / 256.
  The reference runs that chain once per tensor on a [256,256] matrix (`softmaxEps`); the kernel's host tail
  runs it once on the stacked [2,256,256] array (`softmax3`) and then takes the two slices (`pSlice`).
  `lossTail` is the common end.  `sl3 t Z` is the t-th [256,256] layer of a stacked array.
-/
import Idealize.ShloMosaic.Lib.StableHlo
import Idealize.ShloMosaic.PureOps
import Idealize.ShloMosaic.PureOps.Ideal
import Idealize.ShloMosaic.Lib.ValueIdx

noncomputable section

namespace Cert.Spec

open Idealize.ShloMosaic Idealize.ShloMosaic.ValueIdx

abbrev S_ : Shape := ⟨0, ![]⟩
abbrev S256 : Shape := ⟨1, ![256]⟩
abbrev S256x1 : Shape := ⟨2, ![256, 1]⟩
abbrev S256x256 : Shape := ⟨2, ![256, 256]⟩
abbrev S1x256x256 : Shape := ⟨3, ![1, 256, 256]⟩
abbrev S2x256x256 : Shape := ⟨3, ![2, 256, 256]⟩
abbrev S2x256 : Shape := ⟨2, ![2, 256]⟩
abbrev S2x256x1 : Shape := ⟨3, ![2, 256, 1]⟩
abbrev S2x1x256 : Shape := ⟨3, ![2, 1, 256]⟩
abbrev S256x65536 : Shape := ⟨2, ![256, 65536]⟩
abbrev S65536x256 : Shape := ⟨2, ![65536, 256]⟩

theorem h_S_ : 0 < S_.numel := by decide
theorem bc_S_S256x256 : S_.BroadcastsInDim S256x256 (![] : Fin 0 → Fin S256x256.rank) := by decide
theorem bc_S_S256 : S_.BroadcastsInDim S256 (![] : Fin 0 → Fin S256.rank) := by decide
theorem bc_S256_S256x1 : S256.BroadcastsInDim S256x1 (![0] : Fin 1 → Fin S256x1.rank) := by decide
theorem bc_S256x1_S256x256 : S256x1.BroadcastsInDim S256x256 (![0, 1] : Fin 2 → Fin S256x256.rank) := by decide
theorem red_S256x256_S256 : S256x256.ReducesTo [1] S256 := by decide
theorem red_S256x256_S_ : S256x256.ReducesTo [0, 1] S_ := by decide
theorem bc_S256x256_S1x256x256 : S256x256.BroadcastsInDim S1x256x256 (![1, 2] : Fin 2 → Fin S1x256x256.rank) := by decide
theorem bc_S1x256x256_S2x256x256 : S1x256x256.BroadcastsInDim S2x256x256 (![0, 1, 2] : Fin 3 → Fin S2x256x256.rank) := by decide
theorem bc_S_S2x256x256 : S_.BroadcastsInDim S2x256x256 (![] : Fin 0 → Fin S2x256x256.rank) := by decide
theorem red_S2x256x256_S2x256 : S2x256x256.ReducesTo [2] S2x256 := by decide
theorem bc_S_S2x256 : S_.BroadcastsInDim S2x256 (![] : Fin 0 → Fin S2x256.rank) := by decide
theorem bc_S2x256_S2x256x1 : S2x256.BroadcastsInDim S2x256x1 (![0, 1] : Fin 2 → Fin S2x256x1.rank) := by decide
theorem bc_S2x256x1_S2x256x256 : S2x256x1.BroadcastsInDim S2x256x256 (![0, 1, 2] : Fin 3 → Fin S2x256x256.rank) := by decide
theorem sl_S2x256x256_0 : S2x256x256.Slices ![0, 0, 0] S1x256x256 := by decide
theorem sl_S2x256x256_1 : S2x256x256.Slices ![1, 0, 0] S1x256x256 := by decide
theorem sc_S1x256x256_S256x256 : S1x256x256.ShapeCasts S256x256 := by decide

theorem bc_S_S2x1x256 : S_.BroadcastsInDim S2x1x256 (![] : Fin 0 → Fin S2x1x256.rank) := by decide
theorem tr_S2x1x256_S2x256x1 : S2x1x256.Transposes [0, 2, 1] S2x256x1 := by decide
theorem bc_S2x1x256_S2x256x256 : S2x1x256.BroadcastsInDim S2x256x256 (![0, 1, 2] : Fin 3 → Fin S2x256x256.rank) := by decide
theorem red_S256x65536_S256 : S256x65536.ReducesTo [1] S256 := by decide
theorem bc_S_S256x1 : S_.BroadcastsInDim S256x1 (![] : Fin 0 → Fin S256x1.rank) := by decide
theorem bc_S256x1_S256x65536 : S256x1.BroadcastsInDim S256x65536 (![0, 1] : Fin 2 → Fin S256x65536.rank) := by decide
theorem tr_S256x65536_S65536x256 : S256x65536.Transposes [1, 0] S65536x256 := by decide
theorem dotR_wf : DotDims.WF S256x65536 S65536x256 S256x256 [1] [0] [0] [1] [] [] := by decide

/-- The reference's product of the normalized rows with their transpose: contract axis 1 of the left operand with
    axis 0 of the right. -/
def dotR : DotDims S256x65536 S65536x256 S256x256 where
  lhsContracting := [1]
  rhsContracting := [0]
  lhsNonContracting := [0]
  rhsNonContracting := [1]
  lhsBatch := []
  rhsBatch := []
  wf := dotR_wf

variable {F : FTy → Type} [FloatOps F]

/-- The reference's similarity matrix of one flattened tensor `x` [256, 65536]: every row divided by
    max(its Euclidean norm, eps), then the matrix of inner products of the normalized rows. -/
def simR (x : FVec F S256x65536 .f32) : FVec F S256x256 .f32 :=
  let norm : FVec F S256x1 .f32 :=
    Host.sqrt (broadcastInDim S256x1 ![0] bc_S256_S256x1
      (Host.reduceAdd (mulf x x) (constant S_ .f32 0x00000000#32) red_S256x65536_S256 h_S_))
  let den : FVec F S256x1 .f32 := maximumf norm (broadcastInDim S256x1 ![] bc_S_S256x1 (constant S_ .f32 0x322BCC77#32))
  let xn : FVec F S256x65536 .f32 := Host.divf x (broadcastInDim S256x65536 ![0, 1] bc_S256x1_S256x65536 den)
  Host.dotGeneral dotR none xn (transpose S65536x256 [1, 0] xn tr_S256x65536_S65536x256)

/-- The kernel's similarity matrices, stacked: the Gram matrices `g` [2,256,256] divided entry (t,i,j) by
    den(t,i) * den(t,j), where den = max(sqrt of the row's sum of squares `ss` [2,1,256], eps). -/
def sim3 (g : FVec F S2x256x256 .f32) (ss : FVec F S2x1x256 .f32) : FVec F S2x256x256 .f32 :=
  let den : FVec F S2x1x256 .f32 :=
    maximumf (Host.sqrt ss) (broadcastInDim S2x1x256 ![] bc_S_S2x1x256 (constant S_ .f32 0x322BCC77#32))
  Host.divf g
    (mulf (broadcastInDim S2x256x256 ![0, 1, 2] bc_S2x256x1_S2x256x256 (transpose S2x256x1 [0, 2, 1] den tr_S2x1x256_S2x256x1))
      (broadcastInDim S2x256x256 ![0, 1, 2] bc_S2x1x256_S2x256x256 den))

/-- The diagonal of a 256 x 256 matrix as a mask: row number equals column number. -/
def diag : IVec S256x256 1 :=
  cmpi .eq (addi (iotaInDim S256x256 32 0) (broadcastInDim S256x256 ![] bc_S_S256x256 (constantI S_ 32 0#32)))
    (iotaInDim S256x256 32 1)

/-- One tensor's chain from its similarity matrix `s` to its probabilities: mask the diagonal to -inf, subtract
    each row's maximum, exponentiate, divide by the row's sum, add the small constant. -/
def softmaxEps (s : FVec F S256x256 .f32) : FVec F S256x256 .f32 :=
  let masked : FVec F S256x256 .f32 :=
    select diag (broadcastInDim S256x256 ![] bc_S_S256x256 (id (constant S_ .f32 0xFF800000#32))) s
  let rowmax : FVec F S256 .f32 :=
    maximumf (broadcastInDim S256 ![] bc_S_S256 (constant S_ .f32 0xFF800000#32))
      (Host.reduce FloatOps.maximumf masked (constant S_ .f32 0xFF800000#32) red_S256x256_S256 h_S_)
  let e : FVec F S256x256 .f32 :=
    Host.exp (subf masked (broadcastInDim S256x256 ![0, 1] bc_S256x1_S256x256 (broadcastInDim S256x1 ![0] bc_S256_S256x1 rowmax)))
  let rowsum : FVec F S256 .f32 := Host.reduceAdd e (constant S_ .f32 0x00000000#32) red_S256x256_S256 h_S_
  addf (Host.divf e (broadcastInDim S256x256 ![0, 1] bc_S256x1_S256x256 (broadcastInDim S256x1 ![0] bc_S256_S256x1 rowsum)))
    (broadcastInDim S256x256 ![] bc_S_S256x256 (constant S_ .f32 0x322BCC77#32))

/-- The loss from the two probability matrices: the sum over all entries of q * (log q - log p), over 256. -/
def lossTail (p q : FVec F S256x256 .f32) : FVec F S_ .f32 :=
  Host.divf
    (Host.reduceAdd (mulf q (subf (Host.log q) (Host.log p))) (constant S_ .f32 0x00000000#32) red_S256x256_S_ h_S_)
    (constant S_ .f32 0x43800000#32)

/-- The same chain as `softmaxEps`, run on the two matrices stacked as one [2,256,256] array, rows along the last axis. -/
def softmax3 (z : FVec F S2x256x256 .f32) : FVec F S2x256x256 .f32 :=
  let masked : FVec F S2x256x256 .f32 :=
    select (broadcastInDim S2x256x256 ![0, 1, 2] bc_S1x256x256_S2x256x256 (broadcastInDim S1x256x256 ![1, 2] bc_S256x256_S1x256x256 diag))
      (broadcastInDim S2x256x256 ![] bc_S_S2x256x256 (id (constant S_ .f32 0xFF800000#32))) z
  let rowmax : FVec F S2x256 .f32 :=
    maximumf (broadcastInDim S2x256 ![] bc_S_S2x256 (constant S_ .f32 0xFF800000#32))
      (Host.reduce FloatOps.maximumf masked (constant S_ .f32 0xFF800000#32) red_S2x256x256_S2x256 h_S_)
  let e : FVec F S2x256x256 .f32 :=
    Host.exp (subf masked (broadcastInDim S2x256x256 ![0, 1, 2] bc_S2x256x1_S2x256x256 (broadcastInDim S2x256x1 ![0, 1] bc_S2x256_S2x256x1 rowmax)))
  let rowsum : FVec F S2x256 .f32 := Host.reduceAdd e (constant S_ .f32 0x00000000#32) red_S2x256x256_S2x256 h_S_
  addf (Host.divf e (broadcastInDim S2x256x256 ![0, 1, 2] bc_S2x256x1_S2x256x256 (broadcastInDim S2x256x1 ![0, 1] bc_S2x256_S2x256x1 rowsum)))
    (broadcastInDim S2x256x256 ![] bc_S_S2x256x256 (constant S_ .f32 0x322BCC77#32))

/-- Layer 0 and layer 1 of a stacked array, as the host takes them: a unit-stride slice, then the reshape that drops
    the unit axis. -/
def pSlice0 (p : FVec F S2x256x256 .f32) : FVec F S256x256 .f32 :=
  shapeCast S256x256 (extractStridedSlice S1x256x256 ![0, 0, 0] p sl_S2x256x256_0) sc_S1x256x256_S256x256
def pSlice1 (p : FVec F S2x256x256 .f32) : FVec F S256x256 .f32 :=
  shapeCast S256x256 (extractStridedSlice S1x256x256 ![1, 0, 0] p sl_S2x256x256_1) sc_S1x256x256_S256x256

/-- Layer `t` of a stacked array, index by index. -/
def sl3 {α : Type} (t : Fin 2) (z : S2x256x256.Idx → α) : S256x256.Idx → α :=
  fun i => z (ix3 t (i 0) (i 1))

end Cert.Spec

end
-- ==== Proof.KTail.lean ====
/-
  The kernel program's result from the two arrays its region leaves: after the region the host computes, from the
  Gram array and the sum-of-squares array, the stacked similarity matrices, their softmax chain, the two layers and
  the loss.  And the reference program's result term as the same end over its own similarity matrices.
-/
import proofs.«414458_j86079734546728_3_alg».proof.Proof.Gen.KernelIdeal.Frame
import proofs.«414458_j86079734546728_3_alg».proof.Proof.Gen.ReferenceIdeal.Run
import proofs.«414458_j86079734546728_3_alg».proof.Proof.Spec
import Idealize.ShloMosaic.Lib.Pipeline.Value
import Idealize.ShloMosaic.Lib.StableHlo.Run

noncomputable section

open Idealize.ShloMosaic Idealize.ShloMosaic.TcCoe Idealize.SL.Sem
open Idealize.ShloMosaic.Pipeline (Dat)

namespace Cert.KernelIdeal.Region

open Cert.KernelIdeal Cert.KernelIdeal.Gen

variable (m : (ℓ : Loc nD τ sig) → Buf (Elt Ideal) ℓ) (ρ : Dev nD → PrngReg)

/-- The host operations after the region, run from ANY buffer contents `X`: the result buffer holds the common end over
    the stacked similarity matrices computed from what `X` has in the Gram array and in the sum-of-squares array. -/
theorem tail_of (X : Valuation τ sig (Elt Ideal)) :
    StableHlo.after (List.flatten [hostOps1, hostOps1_1, hostOps1_2]) X (Proc.devRef .tc main_v40)
      = Cert.Spec.lossTail (F := Ideal)
          (Cert.Spec.pSlice0 (Cert.Spec.softmax3 (Cert.Spec.sim3 (X (Proc.devRef .tc main_v2_0)) (X (Proc.devRef .tc main_v2_1)))))
          (Cert.Spec.pSlice1 (Cert.Spec.softmax3 (Cert.Spec.sim3 (X (Proc.devRef .tc main_v2_0)) (X (Proc.devRef .tc main_v2_1))))) := by
  simp only [hostOps1, hostOps1_1, hostOps1_2, List.flatten_cons, List.flatten_nil, List.append_nil, List.cons_append,
    List.nil_append]
  after_results_simp
  rfl

/-- The program's result buffer after the host tail, given what the region left in its two output arrays. -/
theorem tail_result (c : Dev nD) (G : Buf (Elt Ideal) ((c : Thread nD τ).loc main_v2_0))
    (S : Buf (Elt Ideal) ((c : Thread nD τ).loc main_v2_1))
    (hG : (dats m 0 c).arrAt 2 cfg0.N = G) (hS : (dats m 0 c).arrAt 3 cfg0.N = S) :
    Pipeline.afterTail₀ cfgs (dats m) 0 (V0 m) [hostOps1, hostOps1_1, hostOps1_2] c main_v40
      = Cert.Spec.lossTail (F := Ideal) (Cert.Spec.pSlice0 (Cert.Spec.softmax3 (Cert.Spec.sim3 G S)))
          (Cert.Spec.pSlice1 (Cert.Spec.softmax3 (Cert.Spec.sim3 G S))) := by
  unfold Pipeline.afterTail₀
  refine (tail_of _).trans ?_
  exact congrArg₂
    (fun (g : FVec Ideal Cert.Spec.S2x256x256 .f32) (s : FVec Ideal Cert.Spec.S2x1x256 .f32) =>
      Cert.Spec.lossTail (F := Ideal) (Cert.Spec.pSlice0 (Cert.Spec.softmax3 (Cert.Spec.sim3 g s)))
        (Cert.Spec.pSlice1 (Cert.Spec.softmax3 (Cert.Spec.sim3 g s))))
    ((Pipeline.withArrays_arr spec0 launch0.win.arr_inj c _ _ 2).trans hG)
    ((Pipeline.withArrays_arr spec0 launch0.win.arr_inj c _ _ 3).trans hS)

/-- The whole run, read: the result at that term, the two argument arrays unchanged. -/
theorem kernel_run (G : (c : Dev nD) → Buf (Elt Ideal) ((c : Thread nD τ).loc main_v2_0))
    (S : (c : Dev nD) → Buf (Elt Ideal) ((c : Thread nD τ).loc main_v2_1))
    (hG : ∀ c, (dats m 0 c).arrAt 2 cfg0.N = G c) (hS : ∀ c, (dats m 0 c).arrAt 3 cfg0.N = S c) :
    θ_run defs (onTc (τ := τ) (main (F := Ideal))) ⟨m, fun _ => 0, ρ⟩ (fun r => ∀ c : Dev nD,
      r.2.mem ((c.tc : Thread nD τ).loc main_v40)
          = Cert.Spec.lossTail (F := Ideal) (Cert.Spec.pSlice0 (Cert.Spec.softmax3 (Cert.Spec.sim3 (G c) (S c))))
              (Cert.Spec.pSlice1 (Cert.Spec.softmax3 (Cert.Spec.sim3 (G c) (S c))))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v40 (Pipeline.mem_restRefs_of main_v40 (by decide) (by decide))).trans
        (tail_result m c (G c) (S c) (hG c) (hS c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Region

namespace Cert.ReferenceIdeal.RefValue

open Cert.ReferenceIdeal Cert.ReferenceIdeal.Gen

/-- The reference's result term is the common end over the reference's two similarity matrices. -/
theorem ref_result (m : (ℓ : Loc nD τ sig) → Buf (Elt Ideal) ℓ) (c : Dev nD) :
    Cert.ReferenceIdeal.Value.res_main_v59 (F := Ideal) m c
      = Cert.Spec.lossTail (F := Ideal)
          (Cert.Spec.softmaxEps (Cert.Spec.simR
            (shapeCast S256x65536 (m ((c.tc : Thread nD τ).loc main_arg0)) shapeCasts_S256x4x128x128_S256x65536)))
          (Cert.Spec.softmaxEps (Cert.Spec.simR
            (shapeCast S256x65536 (m ((c.tc : Thread nD τ).loc main_arg1)) shapeCasts_S256x4x128x128_S256x65536))) := by
  unfold Cert.ReferenceIdeal.Value.res_main_v59 Cert.Spec.lossTail Cert.Spec.softmaxEps Cert.Spec.simR Cert.Spec.diag
  rfl

end Cert.ReferenceIdeal.RefValue

end
-- ==== Proof.Slices.lean ====
/-
  Layer t of the stacked softmax chain is the single-matrix chain of layer t: every operation of `softmax3`
  acts along the last axis or pointwise, so taking layer t commutes with each of them.
-/
import proofs.«414458_j86079734546728_3_alg».proof.Proof.Spec
import Idealize.ShloMosaic.Lib.ValueIdx
import Idealize.ShloMosaic.Lib.Pipeline.Value
import Idealize.ShloMosaic.PureOps.Ideal.Laws

noncomputable section

namespace Cert.Spec

open Idealize.ShloMosaic Idealize.ShloMosaic.ValueIdx

namespace Layer

/-! ### The stages of the two chains, named -/

/-- The stacked chain's masked array. -/
def masked3 (z : FVec Ideal S2x256x256 .f32) : FVec Ideal S2x256x256 .f32 :=
  select (broadcastInDim S2x256x256 ![0, 1, 2] bc_S1x256x256_S2x256x256 (broadcastInDim S1x256x256 ![1, 2] bc_S256x256_S1x256x256 diag))
    (broadcastInDim S2x256x256 ![] bc_S_S2x256x256 (id (constant S_ .f32 0xFF800000#32))) z
/-- The stacked chain's row maxima. -/
def rowmax3 (z : FVec Ideal S2x256x256 .f32) : FVec Ideal S2x256 .f32 :=
  maximumf (broadcastInDim S2x256 ![] bc_S_S2x256 (constant S_ .f32 0xFF800000#32))
    (Host.reduce FloatOps.maximumf (masked3 z) (constant S_ .f32 0xFF800000#32) red_S2x256x256_S2x256 h_S_)
/-- The stacked chain's exponentials. -/
def e3 (z : FVec Ideal S2x256x256 .f32) : FVec Ideal S2x256x256 .f32 :=
  Host.exp (subf (masked3 z) (broadcastInDim S2x256x256 ![0, 1, 2] bc_S2x256x1_S2x256x256 (broadcastInDim S2x256x1 ![0, 1] bc_S2x256_S2x256x1 (rowmax3 z))))
/-- The stacked chain's row sums. -/
def rowsum3 (z : FVec Ideal S2x256x256 .f32) : FVec Ideal S2x256 .f32 :=
  Host.reduceAdd (e3 z) (constant S_ .f32 0x00000000#32) red_S2x256x256_S2x256 h_S_

theorem softmax3_eq (z : FVec Ideal S2x256x256 .f32) : softmax3 z =
    addf (Host.divf (e3 z) (broadcastInDim S2x256x256 ![0, 1, 2] bc_S2x256x1_S2x256x256 (broadcastInDim S2x256x1 ![0, 1] bc_S2x256_S2x256x1 (rowsum3 z))))
      (broadcastInDim S2x256x256 ![] bc_S_S2x256x256 (constant S_ .f32 0x322BCC77#32)) := rfl

/-- The single-matrix chain's masked matrix. -/
def masked (s : FVec Ideal S256x256 .f32) : FVec Ideal S256x256 .f32 :=
  select diag (broadcastInDim S256x256 ![] bc_S_S256x256 (id (constant S_ .f32 0xFF800000#32))) s
/-- The single-matrix chain's row maxima. -/
def rowmax (s : FVec Ideal S256x256 .f32) : FVec Ideal S256 .f32 :=
  maximumf (broadcastInDim S256 ![] bc_S_S256 (constant S_ .f32 0xFF800000#32))
    (Host.reduce FloatOps.maximumf (masked s) (constant S_ .f32 0xFF800000#32) red_S256x256_S256 h_S_)
/-- The single-matrix chain's exponentials. -/
def e (s : FVec Ideal S256x256 .f32) : FVec Ideal S256x256 .f32 :=
  Host.exp (subf (masked s) (broadcastInDim S256x256 ![0, 1] bc_S256x1_S256x256 (broadcastInDim S256x1 ![0] bc_S256_S256x1 (rowmax s))))
/-- The single-matrix chain's row sums. -/
def rowsum (s : FVec Ideal S256x256 .f32) : FVec Ideal S256 .f32 :=
  Host.reduceAdd (e s) (constant S_ .f32 0x00000000#32) red_S256x256_S256 h_S_

theorem softmaxEps_eq (s : FVec Ideal S256x256 .f32) : softmaxEps s =
    addf (Host.divf (e s) (broadcastInDim S256x256 ![0, 1] bc_S256x1_S256x256 (broadcastInDim S256x1 ![0] bc_S256_S256x1 (rowsum s))))
      (broadcastInDim S256x256 ![] bc_S_S256x256 (constant S_ .f32 0x322BCC77#32)) := rfl

/-! ### Reading the layout operations of the two chains at an index -/

/-- A scalar broadcast to any shape reads the scalar everywhere. -/
theorem scalar_apply {T : Shape} {α : Type} (h : S_.BroadcastsInDim T ![]) (x : S_.Idx → α) (j : T.Idx) :
    broadcastInDim T ![] h x j = x ix0 := by
  unfold broadcastInDim; exact congrArg x (funext fun a => a.elim0)

/-- The diagonal mask, broadcast over the layers, reads the mask at (i, j) in every layer. -/
theorem bdiag_apply (t : Fin 2) (i j : Fin 256) :
    broadcastInDim S2x256x256 ![0, 1, 2] bc_S1x256x256_S2x256x256
      (broadcastInDim S1x256x256 ![1, 2] bc_S256x256_S1x256x256 diag) (ix3 t i j) = diag (ix2 i j) := by
  refine (broadcastInDim_apply _ _ _ (ix3 t i j) (ix3 (0 : Fin 1) i j) ?_).trans ?_
  · intro a; match a with | ⟨0, _⟩ => rfl | ⟨1, _⟩ => rfl | ⟨2, _⟩ => rfl
  · refine broadcastInDim_apply _ _ _ (ix3 (0 : Fin 1) i j) (ix2 i j) ?_
    intro a; match a with | ⟨0, _⟩ => rfl | ⟨1, _⟩ => rfl

/-- A per-row value of the stacked array, broadcast along the columns, reads the row's value. -/
theorem bcol3_apply {α : Type} (v : S2x256.Idx → α) (t : Fin 2) (i j : Fin 256) :
    broadcastInDim S2x256x256 ![0, 1, 2] bc_S2x256x1_S2x256x256
      (broadcastInDim S2x256x1 ![0, 1] bc_S2x256_S2x256x1 v) (ix3 t i j) = v (ix2 t i) := by
  refine (broadcastInDim_apply _ _ _ (ix3 t i j) (ix3 t i (0 : Fin 1)) ?_).trans ?_
  · intro a; match a with | ⟨0, _⟩ => rfl | ⟨1, _⟩ => rfl | ⟨2, _⟩ => rfl
  · refine broadcastInDim_apply _ _ _ (ix3 t i (0 : Fin 1)) (ix2 t i) ?_
    intro a; match a with | ⟨0, _⟩ => rfl | ⟨1, _⟩ => rfl

/-- A per-row value of one matrix, broadcast along the columns, reads the row's value. -/
theorem bcol_apply {α : Type} (v : S256.Idx → α) (i j : Fin 256) :
    broadcastInDim S256x256 ![0, 1] bc_S256x1_S256x256
      (broadcastInDim S256x1 ![0] bc_S256_S256x1 v) (ix2 i j) = v (ix1 i) := by
  refine (broadcastInDim_apply _ _ _ (ix2 i j) (ix2 i (0 : Fin 1)) ?_).trans ?_
  · intro a; match a with | ⟨0, _⟩ => rfl | ⟨1, _⟩ => rfl
  · refine broadcastInDim_apply _ _ _ (ix2 i (0 : Fin 1)) (ix1 i) ?_
    intro a; match a with | ⟨0, _⟩ => rfl

/-- Layer 0 as the host takes it reads the stacked array at layer 0. -/
theorem pSlice0_apply (p : FVec Ideal S2x256x256 .f32) (i j : Fin 256) : pSlice0 p (ix2 i j) = p (ix3 (0 : Fin 2) i j) := by
  unfold pSlice0
  refine (shapeCast_apply _ _ (ix2 i j) (ix3 (0 : Fin 1) i j) ?_).trans ?_
  · rw [Shape.rowMajor_val_three, Shape.rowMajor_val_two]
    show (0 * 256 + i.val) * 256 + j.val = i.val * 256 + j.val
    omega
  · refine extractStridedSlice_apply _ _ _ (ix3 (0 : Fin 1) i j) (ix3 (0 : Fin 2) i j) ?_
    intro a
    match a with
    | ⟨0, _⟩ => rfl
    | ⟨1, _⟩ => (show i.val = 0 + i.val; omega)
    | ⟨2, _⟩ => (show j.val = 0 + j.val; omega)

/-- Layer 1 as the host takes it reads the stacked array at layer 1. -/
theorem pSlice1_apply (p : FVec Ideal S2x256x256 .f32) (i j : Fin 256) : pSlice1 p (ix2 i j) = p (ix3 (1 : Fin 2) i j) := by
  unfold pSlice1
  refine (shapeCast_apply _ _ (ix2 i j) (ix3 (0 : Fin 1) i j) ?_).trans ?_
  · rw [Shape.rowMajor_val_three, Shape.rowMajor_val_two]
    show (0 * 256 + i.val) * 256 + j.val = i.val * 256 + j.val
    omega
  · refine extractStridedSlice_apply _ _ _ (ix3 (0 : Fin 1) i j) (ix3 (1 : Fin 2) i j) ?_
    intro a
    match a with
    | ⟨0, _⟩ => rfl
    | ⟨1, _⟩ => (show i.val = 0 + i.val; omega)
    | ⟨2, _⟩ => (show j.val = 0 + j.val; omega)

/-! ### The reduced index with the column inserted -/

theorem red3 : S2x256x256.Reduces [2] S2x256 := by decide
theorem red2 : S256x256.Reduces [1] S256 := by decide

/-- Over row (t, i) of the stacked array, inserting column k gives (t, i, k). -/
theorem lift3 (t : Fin 2) (i k : Fin 256) : red3.lift (ix2 t i) k = ix3 t i k := by
  funext c; apply Fin.ext
  match c with
  | ⟨0, _⟩ => rfl
  | ⟨1, _⟩ => rfl
  | ⟨2, _⟩ => rfl

/-- Over row i of one matrix, inserting column k gives (i, k). -/
theorem lift2 (i k : Fin 256) : red2.lift (ix1 i) k = ix2 i k := by
  funext c; apply Fin.ext
  match c with
  | ⟨0, _⟩ => rfl
  | ⟨1, _⟩ => rfl

/-! ### Layer t commutes with each stage -/

theorem masked_layer (z : FVec Ideal S2x256x256 .f32) (t : Fin 2) (i j : Fin 256) :
    masked3 z (ix3 t i j) = masked (sl3 t z) (ix2 i j) := by
  show Scalar.select _ _ _ = Scalar.select _ _ _
  rw [bdiag_apply, scalar_apply, scalar_apply]
  rfl

/-- Two folds over the columns agree when their operands agree column by column. -/
theorem fold_congr_fun (f : EReal → EReal → EReal) [Std.Commutative f] [Std.Associative f] (b : EReal) (g g' : Fin 256 → EReal)
    (h : ∀ k, g k = g' k) : (Finset.univ : Finset (Fin 256)).fold f b g = (Finset.univ : Finset (Fin 256)).fold f b g' := by
  rw [funext h]

theorem rowmax_layer (z : FVec Ideal S2x256x256 .f32) (t : Fin 2) (i : Fin 256) :
    rowmax3 z (ix2 t i) = rowmax (sl3 t z) (ix1 i) := by
  show max _ _ = max _ _
  rw [scalar_apply, scalar_apply, Host.reduce_eq_fold_single _ _ _ _ red3, Host.reduce_eq_fold_single _ _ _ _ red2]
  refine congrArg _ (fold_congr_fun _ _ _ _ fun k => ?_)
  show masked3 z (red3.lift (ix2 t i) k) = masked (sl3 t z) (red2.lift (ix1 i) k)
  rw [lift3, lift2, masked_layer]

theorem e_layer (z : FVec Ideal S2x256x256 .f32) (t : Fin 2) (i j : Fin 256) :
    e3 z (ix3 t i j) = e (sl3 t z) (ix2 i j) := by
  show FloatOps.hostUnary .exp (masked3 z (ix3 t i j) - _) = FloatOps.hostUnary .exp (masked (sl3 t z) (ix2 i j) - _)
  rw [bcol3_apply, bcol_apply, masked_layer, rowmax_layer]

theorem rowsum_layer (z : FVec Ideal S2x256x256 .f32) (t : Fin 2) (i : Fin 256) :
    rowsum3 z (ix2 t i) = rowsum (sl3 t z) (ix1 i) := by
  show Ideal.hostReduceAdd red_S2x256x256_S2x256 (e3 z) _ (ix2 t i) = Ideal.hostReduceAdd red_S256x256_S256 (e (sl3 t z)) _ (ix1 i)
  rw [Ideal.hostReduceAdd_single _ red3, Ideal.hostReduceAdd_single _ red2]
  show _ + ∑ k : Fin 256, e3 z (red3.lift (ix2 t i) k) = _ + ∑ k : Fin 256, e (sl3 t z) (red2.lift (ix1 i) k)
  refine congrArg _ (Finset.sum_congr rfl fun k _ => ?_)
  rw [lift3, lift2, e_layer]

theorem softmax_layer (z : FVec Ideal S2x256x256 .f32) (t : Fin 2) (i j : Fin 256) :
    softmax3 z (ix3 t i j) = softmaxEps (sl3 t z) (ix2 i j) := by
  rw [softmax3_eq, softmaxEps_eq]
  show Ideal.div (e3 z (ix3 t i j)) _ + _ = Ideal.div (e (sl3 t z) (ix2 i j)) _ + _
  rw [bcol3_apply, bcol_apply, e_layer, rowsum_layer, scalar_apply, scalar_apply]

end Layer

theorem pSlice0_softmax3 (z : FVec Ideal S2x256x256 .f32) : pSlice0 (softmax3 z) = softmaxEps (sl3 0 z) := by
  funext x
  obtain ⟨i, j, rfl⟩ : ∃ i j : Fin 256, x = ix2 i j := ⟨x 0, x 1, eq_ix2 x⟩
  rw [Layer.pSlice0_apply, Layer.softmax_layer]

theorem pSlice1_softmax3 (z : FVec Ideal S2x256x256 .f32) : pSlice1 (softmax3 z) = softmaxEps (sl3 1 z) := by
  funext x
  obtain ⟨i, j, rfl⟩ : ∃ i j : Fin 256, x = ix2 i j := ⟨x 0, x 1, eq_ix2 x⟩
  rw [Layer.pSlice1_apply, Layer.softmax_layer]

end Cert.Spec

end
-- ==== Proof.Payloads.lean ====
/-
  The kernel body's arithmetic read at an entry, over the extended reals.
  One tile's update of the Gram accumulator adds, at entry (i,j), the inner product of rows i and j of the tile
  (the change of float format before the product is the identity here, and the product accumulates into zero);
  one tile's update of the sum-of-squares column adds row i's sum of squares; the reset stores zeros; the final
  copies are re-layings: the Gram accumulator gains a leading unit axis, the column becomes a row under two unit axes.
-/
import proofs.«414458_j86079734546728_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Region

open Idealize.ShloMosaic Idealize.ShloMosaic.ValueIdx
open Cert.KernelIdeal Cert.KernelIdeal.Gen

/-! ## The product's operand indices

The product contracts axis 1 of both operands (the tile times its own transpose): at result entry `(i, j)` and
contraction position `q`, the left operand is read at `(i, q)` and the right at `(j, q)`. One lemma per operand axis. -/

theorem lhs_gram_0 (i : S256x256.Idx) (q : dot_S256x4096_S256x4096_S256x256_1_1_0_0_n_n.contr.Idx) :
    (dot_S256x4096_S256x4096_S256x256_1_1_0_0_n_n.lhsIdx i q 0).val = (i 0).val := by
  unfold DotDims.lhsIdx
  rw [dif_neg (show ¬(0 : Fin S256x4096.rank) ∈ dot_S256x4096_S256x4096_S256x256_1_1_0_0_n_n.lhsBatch by decide), dif_pos (show (0 : Fin S256x4096.rank) ∈ dot_S256x4096_S256x4096_S256x256_1_1_0_0_n_n.lhsNonContracting by decide)]
  rfl

theorem lhs_gram_1 (i : S256x256.Idx) (q : dot_S256x4096_S256x4096_S256x256_1_1_0_0_n_n.contr.Idx) :
    (dot_S256x4096_S256x4096_S256x256_1_1_0_0_n_n.lhsIdx i q 1).val = (q ⟨0, by decide⟩).val :=
  dot_S256x4096_S256x4096_S256x256_1_1_0_0_n_n.lhsIdx_val_of_single rfl i q

theorem rhs_gram_0 (i : S256x256.Idx) (q : dot_S256x4096_S256x4096_S256x256_1_1_0_0_n_n.contr.Idx) :
    (dot_S256x4096_S256x4096_S256x256_1_1_0_0_n_n.rhsIdx i q 0).val = (i 1).val := by
  unfold DotDims.rhsIdx
  rw [dif_neg (show ¬(0 : Fin S256x4096.rank) ∈ dot_S256x4096_S256x4096_S256x256_1_1_0_0_n_n.rhsBatch by decide), dif_pos (show (0 : Fin S256x4096.rank) ∈ dot_S256x4096_S256x4096_S256x256_1_1_0_0_n_n.rhsNonContracting by decide)]
  rfl

theorem rhs_gram_1 (i : S256x256.Idx) (q : dot_S256x4096_S256x4096_S256x256_1_1_0_0_n_n.contr.Idx) :
    (dot_S256x4096_S256x4096_S256x256_1_1_0_0_n_n.rhsIdx i q 1).val = (q ⟨0, by decide⟩).val :=
  dot_S256x4096_S256x4096_S256x256_1_1_0_0_n_n.rhsIdx_val_of_single rfl i q

/-- The product of a tile with its own transpose, accumulated into zero, at entry `(i, j)`: the inner product of
    rows `i` and `j`. -/
theorem gram_apply (y : FVec Ideal S256x4096 .bf16) (i j : Fin 256) :
    matmul dot_S256x4096_S256x4096_S256x256_1_1_0_0_n_n none y y (constant (F := Ideal) S256x256 .f32 0x00000000#32) (ix2 i j)
      = ∑ d : Fin 4096, y (ix2 i d) * y (ix2 j d) := by
  refine (Ideal.matmul_constant_zero_apply dot_S256x4096_S256x4096_S256x256_1_1_0_0_n_n none y y (ix2 i j)).trans ?_
  rw [← Equiv.sum_comp (contrEquiv1 dot_S256x4096_S256x4096_S256x256_1_1_0_0_n_n 4096 rfl rfl).symm]
  refine Finset.sum_congr rfl fun k _ => ?_
  have hk := contrEquiv1_symm_val dot_S256x4096_S256x4096_S256x256_1_1_0_0_n_n 4096 rfl rfl k
  have el : dot_S256x4096_S256x4096_S256x256_1_1_0_0_n_n.lhsIdx (ix2 i j) ((contrEquiv1 dot_S256x4096_S256x4096_S256x256_1_1_0_0_n_n 4096 rfl rfl).symm k) = ix2 i k := funext fun a => Fin.ext (by
    match a with
    | ⟨0, _⟩ => exact lhs_gram_0 _ _
    | ⟨1, _⟩ => exact (lhs_gram_1 _ _).trans hk)
  have er : dot_S256x4096_S256x4096_S256x256_1_1_0_0_n_n.rhsIdx (ix2 i j) ((contrEquiv1 dot_S256x4096_S256x4096_S256x256_1_1_0_0_n_n 4096 rfl rfl).symm k) = ix2 j k := funext fun a => Fin.ext (by
    match a with
    | ⟨0, _⟩ => exact rhs_gram_0 _ _
    | ⟨1, _⟩ => exact (rhs_gram_1 _ _).trans hk)
  rw [el, er]

/-- One tile's update of the Gram accumulator at entry `(i, j)`: the casts to the same shape are identities, the
    change of float format is the identity over the extended reals, and the product accumulates into zero. -/
theorem gram_update_apply (x : FVec Ideal S256x4096 .f32) (acc : FVec Ideal S256x256 .f32)
    (h1 : S256x4096.ShapeCasts S256x4096) (h2 : S256x256.ShapeCasts S256x256) (hb : FTy.bits .bf16 < FTy.bits .f32)
    (i j : Fin 256) :
    shapeCast S256x256 (addf acc (matmul dot_S256x4096_S256x4096_S256x256_1_1_0_0_n_n none
        (truncf .bf16 (shapeCast S256x4096 x h1) hb) (truncf .bf16 (shapeCast S256x4096 x h1) hb)
        (constant (F := Ideal) S256x256 .f32 0x00000000#32))) h2 (ix2 i j)
      = acc (ix2 i j) + ∑ d : Fin 4096, x (ix2 i d) * x (ix2 j d) := by
  refine (congrFun (shapeCast_self _ h2) (ix2 i j)).trans ?_
  refine (addf_apply _ _ _).trans ?_
  refine congrArg (acc (ix2 i j) + ·) ?_
  rw [shapeCast_self x h1]
  exact (gram_apply (truncf .bf16 x hb) i j).trans (Finset.sum_congr rfl fun d _ => rfl)

/-! ## The row sum and the re-layings -/

/-- The sum over axis 1 of a `[256, 4096]` array at row `i`. -/
theorem rowsum_apply (y : FVec Ideal S256x4096 .f32) (h : S256x4096.Reduces [1] S256) (hφ : FKind.Formats .f32)
    (hacc : (0x00000000#32 : BitVec 32) = FKind.add.neutral .f32 hφ) (i : Fin 256) :
    multiReduction (F := Ideal) .add [1] S256 y 0x00000000#32 h hφ hacc (ix1 i) = ∑ d : Fin 4096, y (ix2 i d) := by
  refine (Ideal.multiReduction_add_single y 0x00000000#32 h hφ hacc (ix1 i)).trans ?_
  refine Finset.sum_congr rfl fun d _ => ?_
  exact congrArg y (funext fun a => Fin.ext (by match a with | ⟨0, _⟩ => rfl | ⟨1, _⟩ => rfl))

/-- An `[a]` array cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, a]` array cast to `[1, 1, a]` reads, at `(u, w, i)`, the operand at `(u, i)`. -/
theorem shapeCast_1a_11a_apply {α : Type} {a : ℕ} (x : (⟨2, ![1, a]⟩ : Shape).Idx → α)
    (h : (⟨2, ![1, a]⟩ : Shape).ShapeCasts ⟨3, ![1, 1, a]⟩) (u w : Fin 1) (i : Fin a) :
    shapeCast ⟨3, ![1, 1, a]⟩ x h (ix3 u w i) = x (ix2 u i) :=
  shapeCast_apply x h _ _ (by
    have hu : u.val = 0 := by omega
    have hw : w.val = 0 := by omega
    rw [Shape.rowMajor_val_three, Shape.rowMajor_val_two]
    show u.val * a + i.val = (u.val * 1 + w.val) * a + i.val
    rw [hu, hw])

/-- One tile's update of the sum-of-squares column at row `i`. -/
theorem sq_update_apply (x : FVec Ideal S256x4096 .f32) (s : FVec Ideal S256x1 .f32)
    (h1 : S256x4096.ShapeCasts S256x4096) (hr : S256x4096.Reduces [1] S256) (hφ : FKind.Formats .f32)
    (hacc : (0x00000000#32 : BitVec 32) = FKind.add.neutral .f32 hφ)
    (hc : S256.ShapeCasts S256x1) (h2 : S256x1.ShapeCasts S256x1) (i : Fin 256) :
    shapeCast S256x1 (addf s (shapeCast S256x1
        (multiReduction (F := Ideal) .add [1] S256 (mulf (shapeCast S256x4096 x h1) (shapeCast S256x4096 x h1)) 0x00000000#32 hr hφ hacc)
        hc)) h2 (ix2 i (0 : Fin 1))
      = s (ix2 i (0 : Fin 1)) + ∑ d : Fin 4096, x (ix2 i d) * x (ix2 i d) := by
  refine (congrFun (shapeCast_self _ h2) (ix2 i (0 : Fin 1))).trans ?_
  refine (addf_apply _ _ _).trans ?_
  refine congrArg (s (ix2 i (0 : Fin 1)) + ·) ?_
  rw [shapeCast_self x h1]
  refine (shapeCast_a_a1_apply _ hc i (0 : Fin 1)).trans ?_
  exact (rowsum_apply (mulf x x) hr hφ hacc i).trans (Finset.sum_congr rfl fun d _ => rfl)

/-! ## The payloads -/

theorem pay1_apply (j : S256x256.Idx) : k0_pay1 (F := Ideal) j = 0 := by
  unfold k0_pay1
  refine (congrFun (shapeCast_self _ _) j).trans ?_
  exact Ideal.ofBits_zero_f32

theorem pay2_apply (j : S256x1.Idx) : k0_pay2 (F := Ideal) j = 0 := by
  unfold k0_pay2
  refine (congrFun (shapeCast_self _ _) j).trans ?_
  exact Ideal.ofBits_zero_f32

theorem pay4_apply (x : Vec Ideal S256x4096 .f32) (acc : Vec Ideal S256x256 .f32) (i j : Fin 256) :
    k0_pay4 x acc (ix2 i j) = acc (ix2 i j) + ∑ d : Fin 4096, x (ix2 i d) * x (ix2 j d) := by
  unfold k0_pay4 k0_pay3
  exact gram_update_apply x acc _ _ _ i j

theorem pay7_apply (x : Vec Ideal S256x4096 .f32) (acc : Vec Ideal S256x256 .f32) (i j : Fin 256) :
    k0_pay7 x acc (ix2 i j) = acc (ix2 i j) + ∑ d : Fin 4096, x (ix2 i d) * x (ix2 j d) := by
  unfold k0_pay7 k0_pay6
  exact gram_update_apply x acc _ _ _ i j

theorem pay5_apply (x : Vec Ideal S256x4096 .f32) (s : Vec Ideal S256x1 .f32) (i : Fin 256) :
    k0_pay5 x s (ix2 i (0 : Fin 1)) = s (ix2 i (0 : Fin 1)) + ∑ d : Fin 4096, x (ix2 i d) * x (ix2 i d) := by
  unfold k0_pay5 k0_pay3
  exact sq_update_apply x s _ _ _ _ _ _ i

theorem pay8_apply (x : Vec Ideal S256x4096 .f32) (s : Vec Ideal S256x1 .f32) (i : Fin 256) :
    k0_pay8 x s (ix2 i (0 : Fin 1)) = s (ix2 i (0 : Fin 1)) + ∑ d : Fin 4096, x (ix2 i d) * x (ix2 i d) := by
  unfold k0_pay8 k0_pay6
  exact sq_update_apply x s _ _ _ _ _ _ i

theorem pay9_apply (g : Vec Ideal S256x256 .f32) (i j : Fin 256) :
    k0_pay9 g (ix3 (0 : Fin 1) i j) = g (ix2 i j) := by
  unfold k0_pay9
  exact shapeCast_ab_1ab_apply g _ (0 : Fin 1) i j

theorem pay10_apply (s : Vec Ideal S256x1 .f32) (i : Fin 256) :
    k0_pay10 s (ix3 (0 : Fin 1) (0 : Fin 1) i) = s (ix2 i (0 : Fin 1)) := by
  unfold k0_pay10
  refine (shapeCast_1a_11a_apply _ _ (0 : Fin 1) (0 : Fin 1) i).trans ?_
  exact transpose_ix2_apply s _ (0 : Fin 1) i

end Cert.KernelIdeal.Region

end
-- ==== Proof.Algebra.lean ====
/-
  The law that joins the two sides, over real-valued rows.  For rows a = x(i,.) and b = x(j,.) of real numbers and
  positive denominators A, B:  (sum_n a_n b_n) / (A * B) = sum_n (a_n / A) * (b_n / B); and a sum over the 65536
  columns is the sum over 16 tiles of 4096 columns, column 4096 k + d being column d of tile k.
-/
import Idealize.ShloMosaic.PureOps.Ideal
import Mathlib.Data.Fintype.BigOperators
import Mathlib.Logic.Equiv.Fin.Basic
import Mathlib.Tactic.FieldSimp
import Mathlib.Tactic.Ring
import Mathlib.Tactic.Positivity

noncomputable section

namespace Cert.Algebra

open Idealize.ShloMosaic

/-- Column `d` of tile `k`: column 4096 k + d of the flattened tensor. -/
def tile (k : Fin 16) (d : Fin 4096) : Fin 65536 := ⟨4096 * k.val + d.val, by omega⟩

/-- A finite sum of reals, read in the extended reals, is the sum of the terms read there. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- Summing over the 16 tiles of 4096 columns is summing over the 65536 columns: the pair (k, d) goes to
    column 4096 k + d, a bijection of Fin 16 × Fin 4096 with Fin 65536. -/
theorem tile_sum {M : Type*} [AddCommMonoid M] (f : Fin 65536 → M) :
    ∑ k : Fin 16, ∑ d : Fin 4096, f (tile k d) = ∑ n : Fin 65536, f n := by
  rw [← Fintype.sum_prod_type']
  refine Fintype.sum_equiv (finProdFinEquiv (m := 16) (n := 4096)) _ _ (fun p => ?_)
  congr 1
  apply Fin.ext
  simp [tile, finProdFinEquiv]
  omega

/-- The pattern 0x322BCC77 is a normal positive number: sign bit 0, exponent field 100, neither 0 nor 255. -/
theorem eps_pos : ∃ e : ℝ, 0 < e ∧ Ideal.ofBits .f32 0x322BCC77#32 = (e : EReal) := by
  unfold Ideal.ofBits Ideal.ieee
  simp only []
  rw [if_neg (by decide), if_neg (by decide)]
  refine ⟨_, ?_, rfl⟩
  rw [if_neg (by decide)]
  positivity

/-- The all-zero pattern is the number 0. -/
theorem zero_bits : Ideal.ofBits .f32 0x00000000#32 = 0 := by simp [Ideal.ofBits, Ideal.ieee]

/-- The larger of two reals, read in the extended reals (the inclusion is monotone). -/
theorem coe_max (a b : ℝ) : max (a : EReal) (b : EReal) = ((max a b : ℝ) : EReal) :=
  (EReal.coe_strictMono.monotone.map_max).symm

/-- A sum of products of reals over the columns, read in the extended reals. -/
theorem sum_coe_mul (a b : Fin 65536 → ℝ) :
    ∑ n, ((a n : ℝ) : EReal) * ((b n : ℝ) : EReal) = ((∑ n, a n * b n : ℝ) : EReal) := by
  rw [coe_sum]; simp only [EReal.coe_mul]

/-- The same sum taken tile by tile. -/
theorem tile_sum_coe (a b : Fin 65536 → ℝ) :
    ∑ k : Fin 16, ∑ d : Fin 4096, ((a (tile k d) : ℝ) : EReal) * ((b (tile k d) : ℝ) : EReal)
      = ((∑ n, a n * b n : ℝ) : EReal) := by
  rw [← sum_coe_mul]
  exact tile_sum (fun n => ((a n : ℝ) : EReal) * ((b n : ℝ) : EReal))

/-- A sum of squares is nonnegative, so its square root is the real square root. -/
theorem sqrt_sumsq (a : Fin 65536 → ℝ) :
    Ideal.sqrt ((∑ n, a n * a n : ℝ) : EReal) = ((Real.sqrt (∑ n, a n * a n) : ℝ) : EReal) := by
  rw [Ideal.sqrt_coe, if_neg (not_lt.mpr (Finset.sum_nonneg (fun n _ => mul_self_nonneg (a n))))]

theorem sim_eq (x : Fin 256 → Fin 65536 → ℝ) (i j : Fin 256) :
    Ideal.div (∑ k : Fin 16, ∑ d : Fin 4096, ((x i (tile k d) : ℝ) : EReal) * ((x j (tile k d) : ℝ) : EReal))
        (max (Ideal.sqrt (∑ k : Fin 16, ∑ d : Fin 4096, ((x i (tile k d) : ℝ) : EReal) * ((x i (tile k d) : ℝ) : EReal)))
            (Ideal.ofBits .f32 0x322BCC77#32)
          * max (Ideal.sqrt (∑ k : Fin 16, ∑ d : Fin 4096, ((x j (tile k d) : ℝ) : EReal) * ((x j (tile k d) : ℝ) : EReal)))
            (Ideal.ofBits .f32 0x322BCC77#32))
      = ∑ n : Fin 65536,
          Ideal.div ((x i n : ℝ) : EReal)
              (max (Ideal.sqrt (Ideal.ofBits .f32 0x00000000#32 + ∑ n' : Fin 65536, ((x i n' : ℝ) : EReal) * ((x i n' : ℝ) : EReal)))
                (Ideal.ofBits .f32 0x322BCC77#32))
            * Ideal.div ((x j n : ℝ) : EReal)
              (max (Ideal.sqrt (Ideal.ofBits .f32 0x00000000#32 + ∑ n' : Fin 65536, ((x j n' : ℝ) : EReal) * ((x j n' : ℝ) : EReal)))
                (Ideal.ofBits .f32 0x322BCC77#32)) := by
  -- the guard e is a positive real, and the zero the reference's sums start from is 0
  obtain ⟨e, he, hE⟩ := eps_pos
  rw [hE, zero_bits]
  simp only [zero_add]
  -- every sum is the coercion of a real sum over the 65536 columns; the norms are real square roots
  rw [tile_sum_coe (x i) (x j), tile_sum_coe (x i) (x i), tile_sum_coe (x j) (x j),
    sum_coe_mul (x i) (x i), sum_coe_mul (x j) (x j), sqrt_sumsq, sqrt_sumsq, coe_max, coe_max]
  -- the two denominators A, B are at least e, so they are nonzero
  generalize hA : max (Real.sqrt (∑ n, x i n * x i n)) e = A
  generalize hB : max (Real.sqrt (∑ n, x j n * x j n)) e = B
  have hA0 : A ≠ 0 := by
    have h : e ≤ A := hA ▸ le_max_right _ _
    exact (lt_of_lt_of_le he h).ne'
  have hB0 : B ≠ 0 := by
    have h : e ≤ B := hB ▸ le_max_right _ _
    exact (lt_of_lt_of_le he h).ne'
  -- division by a nonzero real is multiplication by its reciprocal; what is left is an identity in ℝ
  rw [← EReal.coe_mul, Ideal.div_coe (mul_ne_zero hA0 hB0)]
  simp only [Ideal.div_coe hA0, Ideal.div_coe hB0, ← EReal.coe_mul]
  rw [← coe_sum, EReal.coe_eq_coe_iff, Finset.sum_mul]
  refine Finset.sum_congr rfl (fun n _ => ?_)
  field_simp

end Cert.Algebra

end
-- ==== Proof.GramIdx.lean ====
/-
  The two arrays the region leaves, read at an entry over the extended reals, in terms of the two flattened
  tensors X0, X1 ([256, 65536]) as the region finds them.  Tile k of tensor t is columns 4096 k .. 4096 k + 4095;
  point n = 16 t + k stages exactly that tile, so after tensor t's last tile the Gram accumulator's entry (i,j) is
  the sum over the 16 tiles of the inner products of rows i and j within the tile, and the sum-of-squares column's
  entry i the sum over the tiles of row i's sums of squares.
-/
import proofs.«414458_j86079734546728_3_alg».proof.Proof.Arrays
import proofs.«414458_j86079734546728_3_alg».proof.Proof.Payloads
import proofs.«414458_j86079734546728_3_alg».proof.Proof.Algebra
import Idealize.ShloMosaic.Lib.StableHlo.Run

noncomputable section

namespace Cert.KernelIdeal.Region

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

/-- Column `d` of tile `k` (reduced mod 65536 so that it is a column for every k; for k < 16 it is 4096 k + d). -/
def col (k : ℕ) (d : Fin 4096) : Fin 65536 := ⟨(4096 * k + d.val) % 65536, Nat.mod_lt _ (by decide)⟩

theorem col_eq_tile (k : Fin 16) (d : Fin 4096) : col k.val d = Cert.Algebra.tile k d := by
  apply Fin.ext
  show (4096 * k.val + d.val) % 65536 = 4096 * k.val + d.val
  have := k.isLt; have := d.isLt
  exact Nat.mod_eq_of_lt (by omega)

/-- The block indices of the two input windows, decided once over the grid: the first tensor's window walks its
    tiles at points below 16, the second's at points from 16 on. -/
theorem idx0 : ∀ t : Fin cfg0.N, t.val < 16 → win0_0.index t (0 : Fin 2) = 0 ∧ win0_0.index t (1 : Fin 2) = t.val :=
  (by decide +kernel : ∀ t : Fin grid0.N, t.val < 16 → win0_0.index t (0 : Fin 2) = 0 ∧ win0_0.index t (1 : Fin 2) = t.val)
theorem idx1 : ∀ t : Fin cfg0.N, 16 ≤ t.val → win0_1.index t (0 : Fin 2) = 0 ∧ win0_1.index t (1 : Fin 2) = t.val - 16 :=
  (by decide +kernel : ∀ t : Fin grid0.N, 16 ≤ t.val → win0_1.index t (0 : Fin 2) = 0 ∧ win0_1.index t (1 : Fin 2) = t.val - 16)

/-- The first tensor's block at a point below 16 is its tile: entry (i,d) is X0 (i, 4096 n + d). -/
theorem xb0_apply (c : Dev nD) (t : Fin cfg0.N) (ht : t.val < 16) (i : Fin 256) (d : Fin 4096) :
    xb0 m c t (ix2 i d) = V m c main_v0 (ix2 i (col t.val d)) := by
  have hN : t.val < 32 := lt_of_lt_of_eq t.isLt (show cfg0.N = 32 from N_0)
  unfold xb0 iblk
  rw [View.read_apply]
  show V m c main_v0 (((cfg0.win 0).blk t).view.emb (ix2 i d)) = V m c main_v0 (ix2 i (col t.val d))
  congr 1
  funext a
  apply Fin.ext
  have hi := idx0 t ht
  match a with
  | ⟨0, _⟩ =>
    show win0_0.index t 0 * 256 + 1 * i.val = i.val
    rw [hi.1]; omega
  | ⟨1, _⟩ =>
    show win0_0.index t 1 * 4096 + 1 * d.val = (4096 * t.val + d.val) % 65536
    rw [hi.2]
    have := d.isLt
    rw [Nat.mod_eq_of_lt (by omega)]; omega

/-- The second tensor's block at a point from 16 on is its tile. -/
theorem xb1_apply (c : Dev nD) (t : Fin cfg0.N) (ht : 16 ≤ t.val) (i : Fin 256) (d : Fin 4096) :
    xb1 m c t (ix2 i d) = V m c main_v1 (ix2 i (col (t.val - 16) d)) := by
  have hN : t.val < 32 := lt_of_lt_of_eq t.isLt (show cfg0.N = 32 from N_0)
  unfold xb1 iblk
  rw [View.read_apply]
  show V m c main_v1 (((cfg0.win 1).blk t).view.emb (ix2 i d)) = V m c main_v1 (ix2 i (col (t.val - 16) d))
  congr 1
  funext a
  apply Fin.ext
  have hi := idx1 t ht
  match a with
  | ⟨0, _⟩ =>
    show win0_1.index t 0 * 256 + 1 * i.val = i.val
    rw [hi.1]; omega
  | ⟨1, _⟩ =>
    show win0_1.index t 1 * 4096 + 1 * d.val = (4096 * (t.val - 16) + d.val) % 65536
    rw [hi.2]
    have := d.isLt
    rw [Nat.mod_eq_of_lt (by omega)]; omega

theorem xb0_at (c : Dev nD) (n : ℕ) (h : n < cfg0.N) (hn : n < 16) (i : Fin 256) (d : Fin 4096) :
    xb0 m c ⟨n, h⟩ (ix2 i d) = V m c main_v0 (ix2 i (col n d)) := xb0_apply m c ⟨n, h⟩ hn i d

theorem xb1_at (c : Dev nD) (n : ℕ) (h : n < cfg0.N) (hn : 16 ≤ n) (i : Fin 256) (d : Fin 4096) (k : ℕ) (hk : k = n - 16) :
    xb1 m c ⟨n, h⟩ (ix2 i d) = V m c main_v1 (ix2 i (col k d)) := by
  subst hk; exact xb1_apply m c ⟨n, h⟩ hn i d

/-- The inner product of rows i and j of tensor `x` within tile k, and row i's sum of squares within it. -/
def tileDot (x : S256x65536.Idx → EReal) (k : ℕ) (i j : Fin 256) : EReal :=
  ∑ d : Fin 4096, x (ix2 i (col k d)) * x (ix2 j (col k d))

def tileSq (x : S256x65536.Idx → EReal) (k : ℕ) (i : Fin 256) : EReal :=
  ∑ d : Fin 4096, x (ix2 i (col k d)) * x (ix2 i (col k d))

/-- Through the first tensor's points the Gram accumulator's entry is the sum of the tiles' inner products so far. -/
theorem gAcc_first (c : Dev nD) (i j : Fin 256) : ∀ (n : ℕ) (h : n < cfg0.N), n < 16 →
    gAcc m c n h (ix2 i j) = ∑ k ∈ Finset.range (n + 1), tileDot (V m c main_v0) k i j
  | 0, h, _ => by
    show gStep m c 0 h _ (ix2 i j) = _
    unfold gStep
    rw [if_pos rfl, if_pos (by omega), pay4_apply, pay1_apply, zero_add, Finset.sum_range_one]
    unfold tileDot
    exact Finset.sum_congr rfl fun d _ => by
      rw [xb0_at m c 0 h (by omega) i d, xb0_at m c 0 h (by omega) j d]
  | n + 1, h, hn => by
    have ih := gAcc_first c i j n (Nat.lt_of_succ_lt h) (by omega)
    show gStep m c (n + 1) h (gAcc m c n _) (ix2 i j) = _
    unfold gStep
    rw [if_neg (by omega), if_pos hn, pay4_apply, ih, Finset.sum_range_succ (fun k => tileDot (V m c main_v0) k i j) (n + 1)]
    refine congrArg (HAdd.hAdd _) ?_
    unfold tileDot
    exact Finset.sum_congr rfl fun d _ => by
      rw [xb0_at m c (n + 1) h hn i d, xb0_at m c (n + 1) h hn j d]

/-- Through the second tensor's points likewise, the accumulator having been reset at point 16. -/
theorem gAcc_second (c : Dev nD) (i j : Fin 256) : ∀ (n : ℕ) (h : n < cfg0.N), 16 ≤ n →
    gAcc m c n h (ix2 i j) = ∑ k ∈ Finset.range (n - 16 + 1), tileDot (V m c main_v1) k i j
  | 0, _, hn => absurd hn (by omega)
  | n + 1, h, hn => by
    have hN : n + 1 < 32 := lt_of_lt_of_eq h (show cfg0.N = 32 from N_0)
    show gStep m c (n + 1) h (gAcc m c n _) (ix2 i j) = _
    unfold gStep
    by_cases h0 : (n + 1) % 16 = 0
    · have e : n + 1 - 16 = 0 := by omega
      rw [if_pos h0, if_neg (by omega), pay7_apply, pay1_apply, zero_add, e, Finset.sum_range_one]
      unfold tileDot
      exact Finset.sum_congr rfl fun d _ => by
        rw [xb1_at m c (n + 1) h hn i d 0 (by omega), xb1_at m c (n + 1) h hn j d 0 (by omega)]
    · have e : n + 1 - 16 = n - 16 + 1 := by omega
      rw [if_neg h0, if_neg (by omega), pay7_apply, gAcc_second c i j n (Nat.lt_of_succ_lt h) (by omega), e,
        Finset.sum_range_succ (fun k => tileDot (V m c main_v1) k i j) (n - 16 + 1)]
      refine congrArg (HAdd.hAdd _) ?_
      unfold tileDot
      exact Finset.sum_congr rfl fun d _ => by
        rw [xb1_at m c (n + 1) h hn i d (n - 16 + 1) (by omega), xb1_at m c (n + 1) h hn j d (n - 16 + 1) (by omega)]

/-- The sum-of-squares column through the first tensor's points. -/
theorem sAcc_first (c : Dev nD) (i : Fin 256) : ∀ (n : ℕ) (h : n < cfg0.N), n < 16 →
    sAcc m c n h (ix2 i (0 : Fin 1)) = ∑ k ∈ Finset.range (n + 1), tileSq (V m c main_v0) k i
  | 0, h, _ => by
    show sStep m c 0 h _ (ix2 i (0 : Fin 1)) = _
    unfold sStep
    rw [if_pos rfl, if_pos (by omega), pay5_apply, pay2_apply, zero_add, Finset.sum_range_one]
    unfold tileSq
    exact Finset.sum_congr rfl fun d _ => by
      rw [xb0_at m c 0 h (by omega) i d]
  | n + 1, h, hn => by
    have ih := sAcc_first c i n (Nat.lt_of_succ_lt h) (by omega)
    show sStep m c (n + 1) h (sAcc m c n _) (ix2 i (0 : Fin 1)) = _
    unfold sStep
    rw [if_neg (by omega), if_pos hn, pay5_apply, ih, Finset.sum_range_succ (fun k => tileSq (V m c main_v0) k i) (n + 1)]
    refine congrArg (HAdd.hAdd _) ?_
    unfold tileSq
    exact Finset.sum_congr rfl fun d _ => by
      rw [xb0_at m c (n + 1) h hn i d]

/-- And through the second tensor's points. -/
theorem sAcc_second (c : Dev nD) (i : Fin 256) : ∀ (n : ℕ) (h : n < cfg0.N), 16 ≤ n →
    sAcc m c n h (ix2 i (0 : Fin 1)) = ∑ k ∈ Finset.range (n - 16 + 1), tileSq (V m c main_v1) k i
  | 0, _, hn => absurd hn (by omega)
  | n + 1, h, hn => by
    have hN : n + 1 < 32 := lt_of_lt_of_eq h (show cfg0.N = 32 from N_0)
    show sStep m c (n + 1) h (sAcc m c n _) (ix2 i (0 : Fin 1)) = _
    unfold sStep
    by_cases h0 : (n + 1) % 16 = 0
    · have e : n + 1 - 16 = 0 := by omega
      rw [if_pos h0, if_neg (by omega), pay8_apply, pay2_apply, zero_add, e, Finset.sum_range_one]
      unfold tileSq
      exact Finset.sum_congr rfl fun d _ => by
        rw [xb1_at m c (n + 1) h hn i d 0 (by omega)]
    · have e : n + 1 - 16 = n - 16 + 1 := by omega
      rw [if_neg h0, if_neg (by omega), pay8_apply, sAcc_second c i n (Nat.lt_of_succ_lt h) (by omega), e,
        Finset.sum_range_succ (fun k => tileSq (V m c main_v1) k i) (n - 16 + 1)]
      refine congrArg (HAdd.hAdd _) ?_
      unfold tileSq
      exact Finset.sum_congr rfl fun d _ => by
        rw [xb1_at m c (n + 1) h hn i d (n - 16 + 1) (by omega)]

/-- The two flattened tensors as the region finds them, and the two arrays it leaves, at their literal types. -/
abbrev X0 (c : Dev nD) : Vec Ideal S256x65536 .f32 := V m c main_v0
abbrev X1 (c : Dev nD) : Vec Ideal S256x65536 .f32 := V m c main_v1
abbrev gramI (c : Dev nD) : Vec Ideal S2x256x256 .f32 := gramArr m c
abbrev ssqI (c : Dev nD) : Vec Ideal S2x1x256 .f32 := sumsqArr m c

/-- A sum over the first 16 tile numbers is the sum over `Fin 16`, tile k's columns being 4096 k + d. -/
theorem range16_tiles (f : Fin 65536 → EReal) :
    ∑ k ∈ Finset.range 16, ∑ d : Fin 4096, f (col k d) = ∑ k : Fin 16, ∑ d : Fin 4096, f (Cert.Algebra.tile k d) := by
  rw [Finset.sum_range]
  exact Finset.sum_congr rfl fun k _ => Finset.sum_congr rfl fun d _ => by rw [col_eq_tile]

/-- Layer 0 of the Gram array: the first tensor's Gram matrix, tile by tile. -/
theorem gramArr_apply0 (c : Dev nD) (i j : Fin 256) :
    gramI m c (ix3 (0 : Fin 2) i j)
      = ∑ k : Fin 16, ∑ d : Fin 4096,
          X0 m c (ix2 i (Cert.Algebra.tile k d)) * X0 m c (ix2 j (Cert.Algebra.tile k d)) := by
  unfold gramI gramArr
  refine Eq.trans (if_pos rfl) ?_
  show k0_pay9 (gAcc m c 15 lt15) (ix3 (0 : Fin 1) i j) = _
  rw [pay9_apply, gAcc_first m c i j 15 lt15 (by omega)]
  exact range16_tiles (fun n => X0 m c (ix2 i n) * X0 m c (ix2 j n))

/-- Layer 1: the second tensor's. -/
theorem gramArr_apply1 (c : Dev nD) (i j : Fin 256) :
    gramI m c (ix3 (1 : Fin 2) i j)
      = ∑ k : Fin 16, ∑ d : Fin 4096,
          X1 m c (ix2 i (Cert.Algebra.tile k d)) * X1 m c (ix2 j (Cert.Algebra.tile k d)) := by
  unfold gramI gramArr
  refine Eq.trans (if_neg (fun h : (1 : ℕ) = 0 => Nat.one_ne_zero h)) ?_
  show k0_pay9 (gAcc m c 31 lt31) (ix3 (0 : Fin 1) i j) = _
  rw [pay9_apply, gAcc_second m c i j 31 lt31 (by omega)]
  exact range16_tiles (fun n => X1 m c (ix2 i n) * X1 m c (ix2 j n))

/-- Row 0 of the sum-of-squares array. -/
theorem sumsqArr_apply0 (c : Dev nD) (i : Fin 256) :
    ssqI m c (ix3 (0 : Fin 2) (0 : Fin 1) i)
      = ∑ k : Fin 16, ∑ d : Fin 4096,
          X0 m c (ix2 i (Cert.Algebra.tile k d)) * X0 m c (ix2 i (Cert.Algebra.tile k d)) := by
  unfold ssqI sumsqArr
  refine Eq.trans (if_pos rfl) ?_
  show k0_pay10 (sAcc m c 15 lt15) (ix3 (0 : Fin 1) (0 : Fin 1) i) = _
  rw [pay10_apply, sAcc_first m c i 15 lt15 (by omega)]
  exact range16_tiles (fun n => X0 m c (ix2 i n) * X0 m c (ix2 i n))

/-- Row 1. -/
theorem sumsqArr_apply1 (c : Dev nD) (i : Fin 256) :
    ssqI m c (ix3 (1 : Fin 2) (0 : Fin 1) i)
      = ∑ k : Fin 16, ∑ d : Fin 4096,
          X1 m c (ix2 i (Cert.Algebra.tile k d)) * X1 m c (ix2 i (Cert.Algebra.tile k d)) := by
  unfold ssqI sumsqArr
  refine Eq.trans (if_neg (fun h : (1 : ℕ) = 0 => Nat.one_ne_zero h)) ?_
  show k0_pay10 (sAcc m c 31 lt31) (ix3 (0 : Fin 1) (0 : Fin 1) i) = _
  rw [pay10_apply, sAcc_second m c i 31 lt31 (by omega)]
  exact range16_tiles (fun n => X1 m c (ix2 i n) * X1 m c (ix2 i n))

/-- The two flattened tensors as the region finds them are the reshapes of the two arguments. -/
theorem V_main_v0 (c : Dev nD) :
    V m c main_v0 = shapeCast S256x65536 (m ((c : Thread nD τ).loc main_arg0)) shapeCasts_S256x4x128x128_S256x65536 := by
  show StableHlo.after hostOps0 (fun b => m (c, b)) (Proc.devRef .tc main_v0) = _
  after_results
  rfl
theorem V_main_v1 (c : Dev nD) :
    V m c main_v1 = shapeCast S256x65536 (m ((c : Thread nD τ).loc main_arg1)) shapeCasts_S256x4x128x128_S256x65536 := by
  show StableHlo.after hostOps0 (fun b => m (c, b)) (Proc.devRef .tc main_v1) = _
  after_results
  rfl

end Cert.KernelIdeal.Region

end
-- ==== Proof.SimIdx.lean ====
/-
  The two similarity matrices read at an entry.
  The kernel's: entry (t,i,j) of the Gram array over den(t,i) * den(t,j), den = max(sqrt(sum of squares), eps).
  The reference's: entry (i,j) is the sum over the 65536 columns n of (x(i,n)/den(i)) * (x(j,n)/den(j)),
  den(i) = max(sqrt(0 + sum over n of x(i,n)^2), eps).
-/
import proofs.«414458_j86079734546728_3_alg».proof.Proof.Spec
import Idealize.ShloMosaic.Lib.ValueIdx
import Idealize.ShloMosaic.Lib.Pipeline.Value
import Idealize.ShloMosaic.PureOps.Ideal.Laws

noncomputable section

namespace Cert.Spec

open Idealize.ShloMosaic Idealize.ShloMosaic.ValueIdx

/-- The kernel's denominator vector at (t, 0, k): the larger of the square root of the sum of squares and eps. -/
private theorem den3_apply (ss : FVec Ideal S2x1x256 .f32) (t : Fin 2) (k : Fin 256) :
    maximumf (Host.sqrt ss) (broadcastInDim S2x1x256 ![] bc_S_S2x1x256 (constant (F := Ideal) S_ .f32 0x322BCC77#32))
        (ix3 t (0 : Fin 1) k)
      = max (Ideal.sqrt (ss (ix3 t (0 : Fin 1) k))) (Ideal.ofBits .f32 0x322BCC77#32) := by
  rw [maximumf_apply, broadcastInDim_apply _ bc_S_S2x1x256 _ (ix3 t (0 : Fin 1) k) ix0 (fun a => a.elim0)]
  rfl

/-- A [2,1,256] vector transposed to [2,256,1] and broadcast along the last axis reads, at (t,i,j), the vector at (t,0,i). -/
private theorem bcT3_apply (d : FVec Ideal S2x1x256 .f32) (t : Fin 2) (i j : Fin 256) :
    broadcastInDim S2x256x256 ![0, 1, 2] bc_S2x256x1_S2x256x256 (transpose S2x256x1 [0, 2, 1] d tr_S2x1x256_S2x256x1) (ix3 t i j)
      = d (ix3 t (0 : Fin 1) i) := by
  rw [broadcastInDim_apply _ bc_S2x256x1_S2x256x256 _ (ix3 t i j) (ix3 t i (0 : Fin 1)) (fun a => match a with
    | ⟨0, _⟩ => by show t.val = if (2 : Nat) = 1 then 0 else t.val; rw [if_neg (by decide)]
    | ⟨1, _⟩ => by show i.val = if (256 : Nat) = 1 then 0 else i.val; rw [if_neg (by decide)]
    | ⟨2, _⟩ => by show 0 = if (1 : Nat) = 1 then 0 else j.val; rw [if_pos rfl])]
  exact transpose_apply [0, 2, 1] d tr_S2x1x256_S2x256x1 (ix3 t i (0 : Fin 1)) (ix3 t (0 : Fin 1) i) (fun b => match b with
    | ⟨0, _⟩ => rfl
    | ⟨1, _⟩ => rfl
    | ⟨2, _⟩ => rfl)

/-- A [2,1,256] vector broadcast along the middle axis reads, at (t,i,j), the vector at (t,0,j). -/
private theorem bcR3_apply (d : FVec Ideal S2x1x256 .f32) (t : Fin 2) (i j : Fin 256) :
    broadcastInDim S2x256x256 ![0, 1, 2] bc_S2x1x256_S2x256x256 d (ix3 t i j) = d (ix3 t (0 : Fin 1) j) :=
  broadcastInDim_apply _ bc_S2x1x256_S2x256x256 d (ix3 t i j) (ix3 t (0 : Fin 1) j) (fun a => match a with
    | ⟨0, _⟩ => by show t.val = if (2 : Nat) = 1 then 0 else t.val; rw [if_neg (by decide)]
    | ⟨1, _⟩ => by show 0 = if (1 : Nat) = 1 then 0 else i.val; rw [if_pos rfl]
    | ⟨2, _⟩ => by show j.val = if (256 : Nat) = 1 then 0 else j.val; rw [if_neg (by decide)])

theorem sim3_apply (g : FVec Ideal S2x256x256 .f32) (ss : FVec Ideal S2x1x256 .f32) (t : Fin 2) (i j : Fin 256) :
    sim3 g ss (ix3 t i j)
      = Ideal.div (g (ix3 t i j))
          (max (Ideal.sqrt (ss (ix3 t (0 : Fin 1) i))) (Ideal.ofBits .f32 0x322BCC77#32)
            * max (Ideal.sqrt (ss (ix3 t (0 : Fin 1) j))) (Ideal.ofBits .f32 0x322BCC77#32)) := by
  unfold sim3
  dsimp only
  rw [show ∀ a b : FVec Ideal S2x256x256 .f32, Host.divf a b (ix3 t i j) = Ideal.div (a (ix3 t i j)) (b (ix3 t i j)) from
      fun _ _ => rfl, mulf_apply, bcT3_apply, bcR3_apply, den3_apply, den3_apply]

/-- Row i's sum of squares: the host's sum along axis 1 of x * x, from the initial value 0. -/
private theorem rowSS_apply (x : FVec Ideal S256x65536 .f32) (i : Fin 256) :
    Host.reduceAdd (mulf x x) (constant (F := Ideal) S_ .f32 0x00000000#32) red_S256x65536_S256 h_S_ (ix1 i)
      = Ideal.ofBits .f32 0x00000000#32 + ∑ n' : Fin 65536, x (ix2 i n') * x (ix2 i n') := by
  have key : ∀ y : FVec Ideal S256x65536 .f32,
      Host.reduceAdd y (constant (F := Ideal) S_ .f32 0x00000000#32) red_S256x65536_S256 h_S_ (ix1 i)
        = Ideal.ofBits .f32 0x00000000#32 + ∑ n' : Fin 65536, y (ix2 i n') := by
    intro y
    simp only [Host.reduceAdd, Ideal.hostReduceAdd_def]
    rw [Ideal.hostReduceAdd_single red_S256x65536_S256 (by decide)]
    refine congrArg (_ + ·) (Finset.sum_congr rfl fun k _ => ?_)
    exact congrArg y (funext fun a => Fin.ext (by match a with | ⟨0, _⟩ => rfl | ⟨1, _⟩ => rfl))
  exact key (mulf x x)

/-- The reference's denominator of row i, read at (i, 0). -/
private theorem denR_apply (x : FVec Ideal S256x65536 .f32) (i : Fin 256) :
    maximumf
        (Host.sqrt (broadcastInDim S256x1 ![0] bc_S256_S256x1
          (Host.reduceAdd (mulf x x) (constant (F := Ideal) S_ .f32 0x00000000#32) red_S256x65536_S256 h_S_)))
        (broadcastInDim S256x1 ![] bc_S_S256x1 (constant (F := Ideal) S_ .f32 0x322BCC77#32)) (ix2 i (0 : Fin 1))
      = max (Ideal.sqrt (Ideal.ofBits .f32 0x00000000#32 + ∑ n' : Fin 65536, x (ix2 i n') * x (ix2 i n')))
          (Ideal.ofBits .f32 0x322BCC77#32) := by
  rw [maximumf_apply, broadcastInDim_apply _ bc_S_S256x1 _ (ix2 i (0 : Fin 1)) ix0 (fun a => a.elim0), constant_apply,
    show ∀ (v : FVec Ideal S256x1 .f32) (p : S256x1.Idx), Host.sqrt v p = Ideal.sqrt (v p) from fun _ _ => rfl,
    broadcastInDim_apply _ bc_S256_S256x1 _ (ix2 i (0 : Fin 1)) (ix1 i) (fun a => match a with
      | ⟨0, _⟩ => by show i.val = if (256 : Nat) = 1 then 0 else i.val; rw [if_neg (by decide)]),
    rowSS_apply]

/-- A [256,1] column broadcast along the rows reads, at (i,n), the column at (i,0). -/
private theorem bcCol_apply (d : FVec Ideal S256x1 .f32) (i : Fin 256) (n : Fin 65536) :
    broadcastInDim S256x65536 ![0, 1] bc_S256x1_S256x65536 d (ix2 i n) = d (ix2 i (0 : Fin 1)) :=
  broadcastInDim_apply _ bc_S256x1_S256x65536 d (ix2 i n) (ix2 i (0 : Fin 1)) (fun a => match a with
    | ⟨0, _⟩ => by show i.val = if (256 : Nat) = 1 then 0 else i.val; rw [if_neg (by decide)]
    | ⟨1, _⟩ => by show 0 = if (1 : Nat) = 1 then 0 else n.val; rw [if_pos rfl])

/-- The transposed matrix at (n,j) is the matrix at (j,n). -/
private theorem trR_apply (y : FVec Ideal S256x65536 .f32) (n : Fin 65536) (j : Fin 256) :
    transpose S65536x256 [1, 0] y tr_S256x65536_S65536x256 (ix2 n j) = y (ix2 j n) :=
  transpose_apply [1, 0] y tr_S256x65536_S65536x256 (ix2 n j) (ix2 j n) (fun b => match b with
    | ⟨0, _⟩ => rfl
    | ⟨1, _⟩ => rfl)

/-! The operand indices of the product, axis by axis: the left operand is read at (row of the output, k), the right one
    at (k, column of the output), k the one contraction coordinate. -/
private theorem lhs_dotR_0 (i : S256x256.Idx) (q : Cert.Spec.dotR.contr.Idx) :
    (Cert.Spec.dotR.lhsIdx i q 0).val = (i 0).val := by
  unfold DotDims.lhsIdx
  rw [dif_neg (show ¬(0 : Fin S256x65536.rank) ∈ Cert.Spec.dotR.lhsBatch by decide), dif_pos (show (0 : Fin S256x65536.rank) ∈ Cert.Spec.dotR.lhsNonContracting by decide)]
  rfl
private theorem lhs_dotR_1 (i : S256x256.Idx) (q : Cert.Spec.dotR.contr.Idx) :
    (Cert.Spec.dotR.lhsIdx i q 1).val = (q ⟨0, by decide⟩).val :=
  Cert.Spec.dotR.lhsIdx_val_of_single rfl i q
private theorem rhs_dotR_0 (i : S256x256.Idx) (q : Cert.Spec.dotR.contr.Idx) :
    (Cert.Spec.dotR.rhsIdx i q 0).val = (q ⟨0, by decide⟩).val :=
  Cert.Spec.dotR.rhsIdx_val_of_single rfl i q
private theorem rhs_dotR_1 (i : S256x256.Idx) (q : Cert.Spec.dotR.contr.Idx) :
    (Cert.Spec.dotR.rhsIdx i q 1).val = (i 1).val := by
  unfold DotDims.rhsIdx
  rw [dif_neg (show ¬(1 : Fin S65536x256.rank) ∈ Cert.Spec.dotR.rhsBatch by decide), dif_pos (show (1 : Fin S65536x256.rank) ∈ Cert.Spec.dotR.rhsNonContracting by decide)]
  rfl

/-- The product at (i,j): the sum over the contraction coordinate n of left(i,n) * right(n,j). -/
private theorem dotR_apply (a : FVec Ideal S256x65536 .f32) (b : FVec Ideal S65536x256 .f32) (i j : Fin 256) :
    Host.dotGeneral Cert.Spec.dotR none a b (ix2 i j) = ∑ n : Fin 65536, a (ix2 i n) * b (ix2 n j) := by
  simp only [Host.dotGeneral]
  rw [Ideal.dotGeneral_apply, ← Equiv.sum_comp (contrEquiv1 Cert.Spec.dotR 65536 rfl rfl).symm]
  refine Finset.sum_congr rfl fun k _ => ?_
  have hk := contrEquiv1_symm_val Cert.Spec.dotR 65536 rfl rfl k
  have el : Cert.Spec.dotR.lhsIdx (ix2 i j) ((contrEquiv1 Cert.Spec.dotR 65536 rfl rfl).symm k) = ix2 i k := funext fun c => Fin.ext (by
    match c with
    | ⟨0, _⟩ => exact lhs_dotR_0 _ _
    | ⟨1, _⟩ => exact (lhs_dotR_1 _ _).trans hk)
  have er : Cert.Spec.dotR.rhsIdx (ix2 i j) ((contrEquiv1 Cert.Spec.dotR 65536 rfl rfl).symm k) = ix2 k j := funext fun c => Fin.ext (by
    match c with
    | ⟨0, _⟩ => exact (rhs_dotR_0 _ _).trans hk
    | ⟨1, _⟩ => exact rhs_dotR_1 _ _)
  rw [el, er]

theorem simR_apply (x : FVec Ideal S256x65536 .f32) (i j : Fin 256) :
    simR x (ix2 i j)
      = ∑ n : Fin 65536,
          Ideal.div (x (ix2 i n))
              (max (Ideal.sqrt (Ideal.ofBits .f32 0x00000000#32 + ∑ n' : Fin 65536, x (ix2 i n') * x (ix2 i n')))
                (Ideal.ofBits .f32 0x322BCC77#32))
            * Ideal.div (x (ix2 j n))
              (max (Ideal.sqrt (Ideal.ofBits .f32 0x00000000#32 + ∑ n' : Fin 65536, x (ix2 j n') * x (ix2 j n')))
                (Ideal.ofBits .f32 0x322BCC77#32)) := by
  unfold simR
  dsimp only
  rw [dotR_apply]
  refine Finset.sum_congr rfl fun n _ => ?_
  rw [trR_apply,
    show ∀ (a b : FVec Ideal S256x65536 .f32) (r : Fin 256), Host.divf a b (ix2 r n) = Ideal.div (a (ix2 r n)) (b (ix2 r n)) from
      fun _ _ _ => rfl,
    show ∀ (a b : FVec Ideal S256x65536 .f32) (r : Fin 256), Host.divf a b (ix2 r n) = Ideal.div (a (ix2 r n)) (b (ix2 r n)) from
      fun _ _ _ => rfl,
    bcCol_apply, bcCol_apply, denR_apply, denR_apply]

end Cert.Spec

end
-- ==== Proof.Finite.lean ====
/-
  Under the precondition every entry of both argument arrays is a real number: the precondition says |x| < +inf
  entry by entry, which excludes both infinities.
-/
import proofs.«414458_j86079734546728_3_alg».proof.Pre_finite_inputs
import proofs.«414458_j86079734546728_3_alg».proof.Proof.Gen.Pre_finite_inputs
import Idealize.ShloMosaic.PureOps.Ideal
import Idealize.ShloMosaic.Lib.ReduceAll
import Idealize.ShloMosaic.Lib.ValueIdx

noncomputable section

namespace Cert.Finite

open Idealize.ShloMosaic

/-- The rank-0 shape has one index: the empty tuple. -/
instance : Subsingleton Cert.Pre_finite_inputs.S_.Idx := ⟨fun a b => funext fun d => d.elim0⟩

/-- The pattern 0x7F800000 (sign 0, exponent field all ones, fraction 0) is +∞. -/
theorem top_bits : Ideal.ofBits .f32 0x7F800000#32 = ⊤ := by simp [Ideal.ofBits, Ideal.ieee]

/-- |x| < +∞ excludes both infinities: |−∞| = |+∞| = +∞, so x is a real. -/
theorem real_of_abs_lt (x : EReal)
    (h : Ideal.cmp .olt (max x (-x)) (Ideal.ofBits .f32 0x7F800000#32) = 1#1) : ∃ r : ℝ, x = (r : EReal) := by
  rw [top_bits] at h
  induction x using EReal.rec with
  | bot => simp [Ideal.cmp] at h
  | coe r => exact ⟨r, rfl⟩
  | top => simp [Ideal.cmp] at h

theorem real_of_pre (a0 a1 : FVec Ideal Cert.Pre_finite_inputs.S256x4x128x128 .f32)
    (h : Cert.Pre_finite_inputs.fn (F := Ideal) a0 a1 = fun _ => 1#1) :
    (∀ i, ∃ r : ℝ, a0 i = (r : EReal)) ∧ (∀ i, ∃ r : ℝ, a1 i = (r : EReal)) := by
  -- the predicate's one value is the conjunction of the two reductions by "and"
  have h0 := congrFun h ValueIdx.ix0
  dsimp only [Cert.Pre_finite_inputs.fn] at h0
  obtain ⟨h1, h2⟩ := IntOp.andi_eq_one.1 (show IntOp.andi _ _ = 1#1 from h0)
  -- a reduction by "and" over all axes that is 1 has a 1 at every entry: |x| < +∞ there
  refine ⟨fun i => ?_, fun i => ?_⟩
  · exact real_of_abs_lt (a0 i) (Host.reduce_andi_all _ _ _ _ _ h1 i)
  · exact real_of_abs_lt (a1 i) (Host.reduce_andi_all _ _ _ _ _ h2 i)

end Cert.Finite

end
-- ==== Proof.SimBridge.lean ====
/-
  The kernel's stacked similarity matrices, layer by layer, are the reference's similarity matrices of the two
  tensors.  Entry (i,j) on the kernel's side is  (sum over tiles of the rows' inner products) / (den_i * den_j)  with
  den from the tiled sums of squares; on the reference's side  sum over columns of (x_i / den_i) * (x_j / den_j)  with
  den from the plain sum of squares.  The inputs being finite, every entry is a real number, and over the reals the
  two are equal (the quotient distributes over the sum; a sum over 65536 columns is the sum over its 16 tiles).
-/
import proofs.«414458_j86079734546728_3_alg».proof.Proof.GramIdx
import proofs.«414458_j86079734546728_3_alg».proof.Proof.SimIdx
import proofs.«414458_j86079734546728_3_alg».proof.Proof.Finite
import proofs.«414458_j86079734546728_3_alg».proof.Proof.Algebra

noncomputable section

namespace Cert.KernelIdeal.Region

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

theorem sim_layer0 (c : Dev nD)
    (hpre : Cert.Pre_finite_inputs.fn (F := Ideal) (m ((c.tc : Thread nD τ).loc main_arg0)) (m ((c.tc : Thread nD τ).loc main_arg1)) = fun _ => 1#1) :
    Cert.Spec.sl3 (0 : Fin 2) (Cert.Spec.sim3 (F := Ideal) (gramArr m c) (sumsqArr m c))
      = Cert.Spec.simR (F := Ideal)
          (shapeCast S256x65536 (m ((c.tc : Thread nD τ).loc main_arg0)) shapeCasts_S256x4x128x128_S256x65536) := by
  -- entry by entry: layer 0 of the stacked array at (i,j) is the stacked array at (0,i,j)
  funext idx
  obtain ⟨i, j, rfl⟩ : ∃ i j, idx = ix2 i j := ⟨idx 0, idx 1, eq_ix2 idx⟩
  show Cert.Spec.sim3 (F := Ideal) (gramArr m c) (sumsqArr m c) (ix3 (0 : Fin 2) i j) = _
  rw [Cert.Spec.sim3_apply, Cert.Spec.simR_apply]
  -- the kernel's three entries are sums over the 16 tiles of products of entries of the flattened tensor
  have hg := gramArr_apply0 m c i j
  have hsi := sumsqArr_apply0 m c i
  have hsj := sumsqArr_apply0 m c j
  unfold gramI at hg
  unfold ssqI at hsi hsj
  rw [hg, hsi, hsj]
  -- the flattened tensor is the reshape of the argument, so each of its entries is an entry of the argument: a real
  have hX : X0 m c = shapeCast S256x65536 (m ((c.tc : Thread nD τ).loc main_arg0)) shapeCasts_S256x4x128x128_S256x65536 := V_main_v0 m c
  rw [hX]
  have hreal : ∀ q : S256x65536.Idx, ∃ r : ℝ,
      (shapeCast S256x65536 (m ((c.tc : Thread nD τ).loc main_arg0)) shapeCasts_S256x4x128x128_S256x65536 : Vec Ideal S256x65536 .f32) q
        = (r : EReal) := by
    intro q
    unfold shapeCast
    exact (Cert.Finite.real_of_pre _ _ hpre).1 _
  choose r hr using hreal
  simp only [hr]
  -- over real rows the two sides are equal
  exact Cert.Algebra.sim_eq (fun a n => r (ix2 a n)) i j

theorem sim_layer1 (c : Dev nD)
    (hpre : Cert.Pre_finite_inputs.fn (F := Ideal) (m ((c.tc : Thread nD τ).loc main_arg0)) (m ((c.tc : Thread nD τ).loc main_arg1)) = fun _ => 1#1) :
    Cert.Spec.sl3 (1 : Fin 2) (Cert.Spec.sim3 (F := Ideal) (gramArr m c) (sumsqArr m c))
      = Cert.Spec.simR (F := Ideal)
          (shapeCast S256x65536 (m ((c.tc : Thread nD τ).loc main_arg1)) shapeCasts_S256x4x128x128_S256x65536) := by
  -- entry by entry: layer 1 of the stacked array at (i,j) is the stacked array at (1,i,j)
  funext idx
  obtain ⟨i, j, rfl⟩ : ∃ i j, idx = ix2 i j := ⟨idx 0, idx 1, eq_ix2 idx⟩
  show Cert.Spec.sim3 (F := Ideal) (gramArr m c) (sumsqArr m c) (ix3 (1 : Fin 2) i j) = _
  rw [Cert.Spec.sim3_apply, Cert.Spec.simR_apply]
  -- the kernel's three entries are sums over the 16 tiles of products of entries of the flattened tensor
  have hg := gramArr_apply1 m c i j
  have hsi := sumsqArr_apply1 m c i
  have hsj := sumsqArr_apply1 m c j
  unfold gramI at hg
  unfold ssqI at hsi hsj
  rw [hg, hsi, hsj]
  -- the flattened tensor is the reshape of the argument, so each of its entries is an entry of the argument: a real
  have hX : X1 m c = shapeCast S256x65536 (m ((c.tc : Thread nD τ).loc main_arg1)) shapeCasts_S256x4x128x128_S256x65536 := V_main_v1 m c
  rw [hX]
  have hreal : ∀ q : S256x65536.Idx, ∃ r : ℝ,
      (shapeCast S256x65536 (m ((c.tc : Thread nD τ).loc main_arg1)) shapeCasts_S256x4x128x128_S256x65536 : Vec Ideal S256x65536 .f32) q
        = (r : EReal) := by
    intro q
    unfold shapeCast
    exact (Cert.Finite.real_of_pre _ _ hpre).2 _
  choose r hr using hreal
  simp only [hr]
  -- over real rows the two sides are equal
  exact Cert.Algebra.sim_eq (fun a n => r (ix2 a n)) i j

end Cert.KernelIdeal.Region

end
-- ==== Proof.lean ====
/-
  Two programs compute the pairwise-similarity KL loss of two tensors z_ada, z_sou [256, 4, 128, 128], each flattened
  to X [256, 65536]:  sim(i,j) = <x_i, x_j> / (max(|x_i|, eps) max(|x_j|, eps)), the diagonal masked to -inf, a row
  softmax plus eps giving p (first tensor) and q (second), and the loss  sum(q (log q - log p)) / 256.

  The kernel program walks each tensor's 16 column tiles of 4096 columns in one pallas region (grid 2 x 16),
  accumulating the Gram matrix X X^T and the row sums of squares tile by tile, and forms
  sim = gram / (den_i den_j) afterwards on the host, for both tensors at once as a [2,256,256] array.  The reference
  normalizes the rows first, sim = (X / den)(X / den)^T, one tensor after the other.

  Over the extended reals the two agree because the inputs are finite: then every entry is a real number, the
  denominators are positive reals, the quotient distributes over the sum, and the sum over 65536 columns is the sum
  over the 16 tiles of the sums over their 4096 columns (Algebra.lean, SimBridge.lean).  Everything after sim is
  the same chain of operations on both sides, the kernel's on the stacked array: layer t of the stacked chain is the
  single-matrix chain on layer t (Slices.lean).  What the region leaves in its two output arrays is read off the
  generated frame run: the accumulators point by point (Pieces.lean, Accum.lean), the arrays (Arrays.lean), their
  entries as tile sums (Payloads.lean, GramIdx.lean), the host tail and the reference's term (KTail.lean).
  The ideal pass rewrote nothing, so the idealization claim is trivial; the three frames are the generated ones
  (the reference's its generated run with the result dropped).
-/
import proofs.«414458_j86079734546728_3_alg».proof.Defs
import proofs.«414458_j86079734546728_3_alg».proof.Proof.Gen.Kernel
import proofs.«414458_j86079734546728_3_alg».proof.Proof.Gen.Kernel.Frame
import proofs.«414458_j86079734546728_3_alg».proof.Proof.Gen.KernelIdeal
import proofs.«414458_j86079734546728_3_alg».proof.Proof.Gen.KernelIdeal.Frame
import proofs.«414458_j86079734546728_3_alg».proof.Proof.Gen.ReferenceIdeal
import proofs.«414458_j86079734546728_3_alg».proof.Proof.Gen.ReferenceIdeal.Run
import proofs.«414458_j86079734546728_3_alg».proof.Proof.Gen.Pre_finite_inputs
import proofs.«414458_j86079734546728_3_alg».proof.Proof.Arrays
import proofs.«414458_j86079734546728_3_alg».proof.Proof.KTail
import proofs.«414458_j86079734546728_3_alg».proof.Proof.Slices
import proofs.«414458_j86079734546728_3_alg».proof.Proof.SimBridge
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end at the loss of the reference's two similarity matrices of the (agreeing) arguments: the
    kernel's stacked similarity matrices are those, layer by layer, and the rest is one chain. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Spec.lossTail (F := Ideal)
      (Cert.Spec.softmaxEps (Cert.Spec.simR (shapeCast Cert.KernelIdeal.S256x65536
        (m ((c.tc : Thread Cert.KernelIdeal.nD Cert.KernelIdeal.τ).loc Cert.KernelIdeal.main_arg0)) Cert.KernelIdeal.Gen.shapeCasts_S256x4x128x128_S256x65536)))
      (Cert.Spec.softmaxEps (Cert.Spec.simR (shapeCast Cert.KernelIdeal.S256x65536
        (m ((c.tc : Thread Cert.KernelIdeal.nD Cert.KernelIdeal.τ).loc Cert.KernelIdeal.main_arg1)) Cert.KernelIdeal.Gen.shapeCasts_S256x4x128x128_S256x65536))),
    ?_, ?_⟩
  · refine (θ_run Cert.KernelIdeal.defs _ _).mono (fun _ h c => ⟨(h c).1.trans ?_, (h c).2⟩)
      (Cert.KernelIdeal.Region.kernel_run m ρ (Cert.KernelIdeal.Region.gramArr m) (Cert.KernelIdeal.Region.sumsqArr m)
        (Cert.KernelIdeal.Region.final2 m) (Cert.KernelIdeal.Region.final3 m))
    rw [Cert.Spec.pSlice0_softmax3, Cert.Spec.pSlice1_softmax3,
      Cert.KernelIdeal.Region.sim_layer0 m c (hpre c), Cert.KernelIdeal.Region.sim_layer1 m c (hpre c)]
  · refine (θ_run Cert.ReferenceIdeal.defs _ _).mono (fun _ h c => ⟨(h c).1.trans ?_, (h c).2⟩)
      (Cert.ReferenceIdeal.Value.run (F := Ideal) m' ρ')
    rw [Cert.ReferenceIdeal.RefValue.ref_result m' c, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
